-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S256x512 32) (main_arg1 : IVec S256x512 32) (main_arg2 : FVec F S1x128 .f32) (main_arg3 : FVec F S128 .f32) (main_arg4 : FVec F S128x128 .f32) (main_arg5 : FVec F S128 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S256x512x128 : Shape := ⟨3, ![256, 512, 128]⟩
abbrev S8x512 : Shape := ⟨2, ![8, 512]⟩
abbrev S8x512x128 : Shape := ⟨3, ![8, 512, 128]⟩
abbrev S1x512 : Shape := ⟨2, ![1, 512]⟩
abbrev S512x1 : Shape := ⟨2, ![512, 1]⟩
abbrev S512x512 : Shape := ⟨2, ![512, 512]⟩
abbrev S512 : Shape := ⟨1, ![512]⟩
abbrev S512x128 : Shape := ⟨2, ![512, 128]⟩
abbrev S1x512x128 : Shape := ⟨3, ![1, 512, 128]⟩

abbrev nBuf : Space → Nat
  | .hbm => 10
  | .vmem => 12
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S256x512x128, .f32⟩
  | .hbm, ⟨9, _⟩ => ⟨S256x512x128, .f32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S8x512_S1x512_0_0 : ∀ a, (![0, 0] : Fin 2 → Nat) a + S1x512.size a ≤ S8x512.size a
  h_S1x512 : 0 < S1x512.numel
  transposes_S1x512_p1_0_S512x1 : S1x512.Transposes [1, 0] S512x1
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  broadcasts_S512x1_S512x128 : S512x1.Broadcasts S512x128
  broadcasts_S1x128_S512x128 : S1x128.Broadcasts S512x128
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  shapeCasts_S512x128_S1x512x128 : S512x128.ShapeCasts S1x512x128
  inb_S8x512_S1x512_1_0 : ∀ a, (![1, 0] : Fin 2 → Nat) a + S1x512.size a ≤ S8x512.size a
  inb_S8x512x128_S1x512x128_1_0_0 : ∀ a, (![1, 0, 0] : Fin 3 → Nat) a + S1x512x128.size a ≤ S8x512x128.size a
  inb_S8x512_S1x512_2_0 : ∀ a, (![2, 0] : Fin 2 → Nat) a + S1x512.size a ≤ S8x512.size a
  inb_S8x512x128_S1x512x128_2_0_0 : ∀ a, (![2, 0, 0] : Fin 3 → Nat) a + S1x512x128.size a ≤ S8x512x128.size a
  inb_S8x512_S1x512_3_0 : ∀ a, (![3, 0] : Fin 2 → Nat) a + S1x512.size a ≤ S8x512.size a
  inb_S8x512x128_S1x512x128_3_0_0 : ∀ a, (![3, 0, 0] : Fin 3 → Nat) a + S1x512x128.size a ≤ S8x512x128.size a
  inb_S8x512_S1x512_4_0 : ∀ a, (![4, 0] : Fin 2 → Nat) a + S1x512.size a ≤ S8x512.size a
  inb_S8x512x128_S1x512x128_4_0_0 : ∀ a, (![4, 0, 0] : Fin 3 → Nat) a + S1x512x128.size a ≤ S8x512x128.size a
  inb_S8x512_S1x512_5_0 : ∀ a, (![5, 0] : Fin 2 → Nat) a + S1x512.size a ≤ S8x512.size a
  inb_S8x512x128_S1x512x128_5_0_0 : ∀ a, (![5, 0, 0] : Fin 3 → Nat) a + S1x512x128.size a ≤ S8x512x128.size a
  inb_S8x512_S1x512_6_0 : ∀ a, (![6, 0] : Fin 2 → Nat) a + S1x512.size a ≤ S8x512.size a
  inb_S8x512x128_S1x512x128_6_0_0 : ∀ a, (![6, 0, 0] : Fin 3 → Nat) a + S1x512x128.size a ≤ S8x512x128.size a
  inb_S8x512_S1x512_7_0 : ∀ a, (![7, 0] : Fin 2 → Nat) a + S1x512.size a ≤ S8x512.size a
  inb_S8x512x128_S1x512x128_7_0_0 : ∀ a, (![7, 0, 0] : Fin 3 → Nat) a + S1x512x128.size a ≤ S8x512x128.size a
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .i32 = 32 ∨ (Rect.block (s := S256x512) S8x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S256x512.size a
  hwx0_1 : ∀ i : grid0.Coords, EltTy.bits .i32 = 32 ∨ (Rect.block (s := S256x512) S8x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x128.size a ≤ S256x512x128.size a
  hwx0_6 : ∀ i : grid0.Coords, EltTy.bits .f32 = 32 ∨ (Rect.block (s := S256x512x128) S8x512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512x128.size a ≤ S256x512x128.size a
  hwx0_7 : ∀ i : grid0.Coords, EltTy.bits .f32 = 32 ∨ (Rect.block (s := S256x512x128) S8x512x128.size (cc0_transform_7 i) (hinb0_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S8x512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S8x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x512 : Shape := ⟨2, ![256, 512]⟩
abbrev S1x128 : Shape := ⟨2, ![1, 128]⟩
abbrev S128 : Shape := ⟨1, ![128]⟩
abbrev S128x128 : Shape := ⟨2, ![128, 128]⟩
abbrev S256x512x1 : Shape := ⟨3, ![256, 512, 1]⟩
abbrev S256x1x512 : Shape := ⟨3, ![256, 1, 512]⟩
abbrev S256x512x512 : Shape := ⟨3, ![256, 512, 512]⟩
abbrev S_ : Shape := ⟨0, ![]⟩
abbrev S256x512x2 : Shape := ⟨3, ![256, 512, 2]⟩
abbrev S256x512x2x1 : Shape := ⟨4, ![256, 512, 2, 1]⟩
abbrev S1x1x1x128 : Shape := ⟨4, ![1, 1, 1, 128]⟩
abbrev S256x512x2x128 : Shape := ⟨4, ![256, 512, 2, 128]⟩
abbrev S256x512x128 : Shape := ⟨3, ![256, 512, 128]⟩

abbrev nBuf : Space → Nat
  | .hbm => 102
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S1x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x512x1, .i32⟩
  | .hbm, ⟨7, _⟩ => ⟨S256x1x512, .i32⟩
  | .hbm, ⟨8, _⟩ => ⟨S256x512x512, .i32⟩
  | .hbm, ⟨9, _⟩ => ⟨S256x512x512, .i32⟩
  | .hbm, ⟨10, _⟩ => ⟨S256x512x512, .i1⟩
  | .hbm, ⟨11, _⟩ => ⟨S256x512x512, .i32⟩
  | .hbm, ⟨12, _⟩ => ⟨S_, .i32⟩
  | .hbm, ⟨13, _⟩ => ⟨S256x512, .i32⟩
  | .hbm, ⟨14, _⟩ => ⟨S256x512, .f32⟩
  | .hbm, ⟨15, _⟩ => ⟨S256x512x1, .i32⟩
  | .hbm, ⟨16, _⟩ => ⟨S256x1x512, .i32⟩
  | .hbm, ⟨17, _⟩ => ⟨S256x512x512, .i32⟩
  | .hbm, ⟨18, _⟩ => ⟨S256x512x512, .i32⟩
  | .hbm, ⟨19, _⟩ => ⟨S256x512x512, .i1⟩
  | .hbm, ⟨20, _⟩ => ⟨S256x512x512, .i32⟩
  | .hbm, ⟨21, _⟩ => ⟨S_, .i32⟩
  | .hbm, ⟨22, _⟩ => ⟨S256x512, .i32⟩
  | .hbm, ⟨23, _⟩ => ⟨S256x512, .f32⟩
  | .hbm, ⟨24, _⟩ => ⟨S256x512x1, .f32⟩
  | .hbm, ⟨25, _⟩ => ⟨S256x512x1, .f32⟩
  | .hbm, ⟨26, _⟩ => ⟨S256x512x2, .f32⟩
  | .hbm, ⟨27, _⟩ => ⟨S256x512x1, .i32⟩
  | .hbm, ⟨28, _⟩ => ⟨S256x1x512, .i32⟩
  | .hbm, ⟨29, _⟩ => ⟨S256x512x512, .i32⟩
  | .hbm, ⟨30, _⟩ => ⟨S256x512x512, .i32⟩
  | .hbm, ⟨31, _⟩ => ⟨S256x512x512, .i1⟩
  | .hbm, ⟨32, _⟩ => ⟨S256x512x512, .i32⟩
  | .hbm, ⟨33, _⟩ => ⟨S_, .i32⟩
  | .hbm, ⟨34, _⟩ => ⟨S256x512, .i32⟩
  | .hbm, ⟨35, _⟩ => ⟨S256x512, .f32⟩
  | .hbm, ⟨36, _⟩ => ⟨S256x512x1, .i32⟩
  | .hbm, ⟨37, _⟩ => ⟨S256x1x512, .i32⟩
  | .hbm, ⟨38, _⟩ => ⟨S256x512x512, .i32⟩
  | .hbm, ⟨39, _⟩ => ⟨S256x512x512, .i32⟩
  | .hbm, ⟨40, _⟩ => ⟨S256x512x512, .i1⟩
  | .hbm, ⟨41, _⟩ => ⟨S256x512x512, .i32⟩
  | .hbm, ⟨42, _⟩ => ⟨S_, .i32⟩
  | .hbm, ⟨43, _⟩ => ⟨S256x512, .i32⟩
  | .hbm, ⟨44, _⟩ => ⟨S256x512, .f32⟩
  | .hbm, ⟨45, _⟩ => ⟨S256x512x1, .f32⟩
  | .hbm, ⟨46, _⟩ => ⟨S256x512x1, .f32⟩
  | .hbm, ⟨47, _⟩ => ⟨S256x512x2, .f32⟩
  | .hbm, ⟨48, _⟩ => ⟨S256x512x1, .i32⟩
  | .hbm, ⟨49, _⟩ => ⟨S_, .i32⟩
  | .hbm, ⟨50, _⟩ => ⟨S256x512x1, .i32⟩
  | .hbm, ⟨51, _⟩ => ⟨S256x512x1, .i1⟩
  | .hbm, ⟨52, _⟩ => ⟨S_, .f32⟩
  | .hbm, ⟨53, _⟩ => ⟨S_, .f32⟩
  | .hbm, ⟨54, _⟩ => ⟨S256x512x2, .i1⟩
  | .hbm, ⟨55, _⟩ => ⟨S256x512x2, .f32⟩
  | .hbm, ⟨56, _⟩ => ⟨S256x512x2, .f32⟩
  | .hbm, ⟨57, _⟩ => ⟨S256x512x1, .i32⟩
  | .hbm, ⟨58, _⟩ => ⟨S_, .i32⟩
  | .hbm, ⟨59, _⟩ => ⟨S256x512x1, .i32⟩
  | .hbm, ⟨60, _⟩ => ⟨S256x512x1, .i1⟩
  | .hbm, ⟨61, _⟩ => ⟨S_, .f32⟩
  | .hbm, ⟨62, _⟩ => ⟨S_, .f32⟩
  | .hbm, ⟨63, _⟩ => ⟨S256x512x2, .i1⟩
  | .hbm, ⟨64, _⟩ => ⟨S256x512x2, .f32⟩
  | .hbm, ⟨65, _⟩ => ⟨S256x512x2, .f32⟩
  | .hbm, ⟨66, _⟩ => ⟨S256x512x2x1, .f32⟩
  | .hbm, ⟨67, _⟩ => ⟨S128, .f32⟩
  | .hbm, ⟨68, _⟩ => ⟨S1x1x1x128, .f32⟩
  | .hbm, ⟨69, _⟩ => ⟨S256x512x2x128, .f32⟩
  | .hbm, ⟨70, _⟩ => ⟨S256x512x2x128, .f32⟩
  | .hbm, ⟨71, _⟩ => ⟨S256x512x2x128, .f32⟩
  | .hbm, ⟨72, _⟩ => ⟨S1x1x1x128, .f32⟩
  | .hbm, ⟨73, _⟩ => ⟨S256x512x2x128, .f32⟩
  | .hbm, ⟨74, _⟩ => ⟨S256x512x2x128, .f32⟩
  | .hbm, ⟨75, _⟩ => ⟨S_, .f32⟩
  | .hbm, ⟨76, _⟩ => ⟨S256x512x2x128, .f32⟩
  | .hbm, ⟨77, _⟩ => ⟨S256x512x2x128, .f32⟩
  | .hbm, ⟨78, _⟩ => ⟨S256x512x2x128, .f32⟩
  | .hbm, ⟨79, _⟩ => ⟨S1x1x1x128, .f32⟩
  | .hbm, ⟨80, _⟩ => ⟨S256x512x2x128, .f32⟩
  | .hbm, ⟨81, _⟩ => ⟨S256x512x2x128, .f32⟩
  | .hbm, ⟨82, _⟩ => ⟨S_, .f32⟩
  | .hbm, ⟨83, _⟩ => ⟨S256x512x128, .f32⟩
  | .hbm, ⟨84, _⟩ => ⟨S256x512x2x1, .f32⟩
  | .hbm, ⟨85, _⟩ => ⟨S128, .f32⟩
  | .hbm, ⟨86, _⟩ => ⟨S1x1x1x128, .f32⟩
  | .hbm, ⟨87, _⟩ => ⟨S256x512x2x128, .f32⟩
  | .hbm, ⟨88, _⟩ => ⟨S256x512x2x128, .f32⟩
  | .hbm, ⟨89, _⟩ => ⟨S256x512x2x128, .f32⟩
  | .hbm, ⟨90, _⟩ => ⟨S1x1x1x128, .f32⟩
  | .hbm, ⟨91, _⟩ => ⟨S256x512x2x128, .f32⟩
  | .hbm, ⟨92, _⟩ => ⟨S256x512x2x128, .f32⟩
  | .hbm, ⟨93, _⟩ => ⟨S_, .f32⟩
  | .hbm, ⟨94, _⟩ => ⟨S256x512x2x128, .f32⟩
  | .hbm, ⟨95, _⟩ => ⟨S256x512x2x128, .f32⟩
  | .hbm, ⟨96, _⟩ => ⟨S256x512x2x128, .f32⟩
  | .hbm, ⟨97, _⟩ => ⟨S1x1x1x128, .f32⟩
  | .hbm, ⟨98, _⟩ => ⟨S256x512x2x128, .f32⟩
  | .hbm, ⟨99, _⟩ => ⟨S256x512x2x128, .f32⟩
  | .hbm, ⟨100, _⟩ => ⟨S_, .f32⟩
  | .hbm, ⟨101, _⟩ => ⟨S256x512x128, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call3_cst : Ref sig .tc := ⟨.hbm, 93, rfl⟩
abbrev main_call3_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  natLt_1_32 : 1 < 32
  reducesTo_S256x512x512_S256x512_d2 : S256x512x512.ReducesTo [2] S256x512
  h_S_ : 0 < S_.numel
  concatenates_S256x512x1_S256x512x1_S256x512x2_d2 : Shape.Concatenates [S256x512x1, S256x512x1] S256x512x2 2
  bcast_S_S256x512x1 : S_.BroadcastsInDim S256x512x1 (![] : Fin 0 → Fin S256x512x1.rank)
  bcast_S256x512x1_S256x512x2_0_1_2 : S256x512x1.BroadcastsInDim S256x512x2 (![0, 1, 2] : Fin 3 → Fin S256x512x2.rank)
  bcast_S_S256x512x2 : S_.BroadcastsInDim S256x512x2 (![] : Fin 0 → Fin S256x512x2.rank)
  bcast_S256x512x2_S256x512x2x1_0_1_2 : S256x512x2.BroadcastsInDim S256x512x2x1 (![0, 1, 2] : Fin 3 → Fin S256x512x2x1.rank)
  shapeCasts_S1x128_S128 : S1x128.ShapeCasts S128
  bcast_S128_S1x1x1x128_3 : S128.BroadcastsInDim S1x1x1x128 (![3] : Fin 1 → Fin S1x1x1x128.rank)
  bcast_S256x512x2x1_S256x512x2x128_0_1_2_3 : S256x512x2x1.BroadcastsInDim S256x512x2x128 (![0, 1, 2, 3] : Fin 4 → Fin S256x512x2x128.rank)
  bcast_S1x1x1x128_S256x512x2x128_0_1_2_3 : S1x1x1x128.BroadcastsInDim S256x512x2x128 (![0, 1, 2, 3] : Fin 4 → Fin S256x512x2x128.rank)
  bcast_S_S256x512x2x128 : S_.BroadcastsInDim S256x512x2x128 (![] : Fin 0 → Fin S256x512x2x128.rank)
  reducesTo_S256x512x2x128_S256x512x128_d2 : S256x512x2x128.ReducesTo [2] S256x512x128
  dot_S256x512x2x128_S128x128_S256x512x2x128_3_0_012_1_n_n_wf : DotDims.WF S256x512x2x128 S128x128 S256x512x2x128 [3] [0] [0, 1, 2] [1] [] []

variable [Facts₀]

def dot_S256x512x2x128_S128x128_S256x512x2x128_3_0_012_1_n_n : DotDims S256x512x2x128 S128x128 S256x512x2x128 where
  lhsContracting := [3]
  rhsContracting := [0]
  lhsNonContracting := [0, 1, 2]
  rhsNonContracting := [1]
  lhsBatch := []
  rhsBatch := []
  wf := dot_S256x512x2x128_S128x128_S256x512x2x128_3_0_012_1_n_n_wf

class Facts : Prop extends Facts₀ where

variable [Facts]
-- ==== Proof.Spec.lean ====
/-
  The mathematics of the co-occurrence encoder, one output element at a time.

  For an id `a` and a row of ids `y`, `count a y` is the number of positions of `y` that hold `a`; `app a y` is that
  count, set to zero when `a` is the padding id 0. The encoder sends an appearance count `c` through a first layer
  `relu (c · w1 k + b1 k)` (`hidden`) and a second, linear, layer with weights `w2` and bias `b2`, and adds the results
  for the two counts of one id (its appearances among the source ids and among the destination ids of its row).
  There are two ways to add them: the second layer applied to each count and the two results added (`refAt`), or the
  two hidden vectors added first and the second layer applied once, its bias doubled (`encAt`). Over the extended
  reals the two agree when the weights are finite (the second layer is linear there); that is proved elsewhere.
-/
import Idealize.ShloMosaic.PureOps.Ideal
import Idealize.ShloMosaic.Lib.ValueIdx

noncomputable section

open scoped BigOperators

namespace Cooc

open Idealize.ShloMosaic Idealize.ShloMosaic.ValueIdx

/-- How many of the 512 positions of the row `y` hold the id `a`. -/
def count (a : BitVec 32) (y : Fin 512 → BitVec 32) : EReal :=
  ∑ j : Fin 512, if a = y j then (1 : EReal) else 0

/-- The appearance count of `a` in `y`, zero for the padding id. -/
def app (a : BitVec 32) (y : Fin 512 → BitVec 32) : EReal :=
  if a = 0#32 then 0 else count a y

/-- Hidden unit `k` of the first layer at appearance count `c`: `relu (c · w1 k + b1 k)`. -/
def hidden (w1 b1 : Fin 128 → EReal) (c : EReal) (k : Fin 128) : EReal :=
  max (c * w1 k + b1 k) 0

/-- One output element, the hidden vectors of the two counts added BEFORE the second layer: `w2` is the column of the
    second layer's weights for this output feature, `b2` its bias. -/
def encAt (a : BitVec 32) (y0 y1 : Fin 512 → BitVec 32) (w1 b1 w2 : Fin 128 → EReal) (b2 : EReal) : EReal :=
  (∑ k : Fin 128, (hidden w1 b1 (app a y0) k + hidden w1 b1 (app a y1) k) * w2 k) + 2 * b2

/-- The same element, the second layer applied to each count's hidden vector and the two results added (to a zero
    start value). -/
def refAt (a : BitVec 32) (y0 y1 : Fin 512 → BitVec 32) (w1 b1 w2 : Fin 128 → EReal) (b2 : EReal) : EReal :=
  0 + (((∑ k : Fin 128, hidden w1 b1 (app a y0) k * w2 k) + b2) + ((∑ k : Fin 128, hidden w1 b1 (app a y1) k * w2 k) + b2))

/-- The whole output array for the ids `own` (the source ids, or the destination ids), each counted within its row of
    the source ids `x0` and of the destination ids `x1`. -/
def encOf (own x0 x1 : (⟨2, ![256, 512]⟩ : Shape).Idx → BitVec 32) (W1 : (⟨2, ![1, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨3, ![256, 512, 128]⟩ : Shape).Idx → EReal :=
  fun i => encAt (own (ix2 (i 0) (i 1))) (fun j => x0 (ix2 (i 0) j)) (fun j => x1 (ix2 (i 0) j))
    (fun k => W1 (ix2 0 k)) (fun k => b1 (ix1 k)) (fun k => W2 (ix2 k (i 2))) (b2 (ix1 (i 2)))

end Cooc

end
-- ==== Proof.KernelRow.lean ====
/-
  One batch row of the kernel's body as a pure function of what it loads, and its value at an index.

  The body handles the eight rows of a block one after the other with the same operations: from the row's source ids
  `s` and destination ids `d` (each [1, 512]) it forms, for every position l, the four appearance counts (a compare of
  the transposed row against the row, a select of 1.0 / 0.0, a lane sum), zeroes them at padded positions, applies the
  first layer to each count, adds the two hidden arrays of one id, multiplies by W2 on the matrix unit and adds twice
  the second bias. `rowS` is what it stores for the source ids' output, `rowD` for the destination ids' output.
-/
import proofs.«180339_g1889785610786_pilotgen1_543_2_alg».proof.Proof.Gen.KernelIdeal.Skeleton
import proofs.«180339_g1889785610786_pilotgen1_543_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cooc

variable {F : FTy → Type} [FloatOps F]

/-- What the body stores in row r of the source ids' output block, from the first layer's weights `w1` and bias `b1`
    (both [1, 128]), the second layer's weights `W2` and bias `b2`, and row r of the two id blocks. -/
def rowS (w1 b1 : Vec F S1x128 .f32) (W2 : Vec F S128x128 .f32) (b2 : Vec F S1x128 .f32) (s d : Vec F S1x512 .i32) :
    FVec F S1x512x128 .f32 :=
  k0_pay15 W2 (k0_pay3 b2) (k0_pay11 w1 (k0_pay2 b1) (k0_pay4 s) (k0_pay6 s) (k0_pay7 s d))

/-- What the body stores in row r of the destination ids' output block. -/
def rowD (w1 b1 : Vec F S1x128 .f32) (W2 : Vec F S128x128 .f32) (b2 : Vec F S1x128 .f32) (s d : Vec F S1x512 .i32) :
    FVec F S1x512x128 .f32 :=
  k0_pay16 W2 (k0_pay3 b2) (k0_pay12 w1 (k0_pay2 b1) (k0_pay5 d) (k0_pay8 s d))
    (k0_pay13 w1 (k0_pay2 b1) d (k0_pay5 d) (k0_pay9 d)) (k0_pay14 (F := F))

open scoped BigOperators

/-! ## The literal words -/

private theorem word_one : Ideal.ofBits .f32 0x3F800000#32 = 1 := by
  simp [Ideal.ofBits, Ideal.ieee, -EReal.coe_mul]; norm_num

private theorem word_two : Ideal.ofBits .f32 0x40000000#32 = 2 := by
  simp [Ideal.ofBits, Ideal.ieee, -EReal.coe_mul]; norm_num; norm_cast

/-! ## A select on an equality compare -/

/-- The compare's bit is set exactly when the two words agree. -/
theorem cmpi_eq_one_iff (a b : BitVec 32) : IntOp.cmpi .eq a b = 1 ↔ a = b := by
  unfold IntOp.cmpi
  cases h : (a == b) <;> simp_all

/-- A select on that bit picks its first value when the words agree, else its second. -/
theorem select_cmpi_eq {α : Type} (a b : BitVec 32) (x y : α) :
    Scalar.select (IntOp.cmpi .eq a b) x y = if a = b then x else y := by
  unfold Scalar.select
  by_cases h : a = b
  · rw [if_pos h, if_pos ((cmpi_eq_one_iff a b).2 h)]
  · rw [if_neg h, if_neg (fun hc => h ((cmpi_eq_one_iff a b).1 hc))]

/-! ## Layout operations at explicit coordinates -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A cast to the same shape reads the operand at the same index. -/
theorem shapeCast_same_apply {s : Shape} (x : s.Idx → α) (h : s.ShapeCasts s) (j : s.Idx) : shapeCast s x h j = x j :=
  shapeCast_apply x h j j rfl

end Layout

/-! ## The appearance count of one position -/

/-- Over result index `l` of a lane sum of a square array, the source index with `k` on the summed axis is `(l, k)`. -/
theorem lift_ix1 (h : S512x512.Reduces [1] S512) (l k : Fin 512) : h.lift (ix1 l) k = ix2 l k := by
  funext c
  match c with
  | ⟨0, _⟩ => rfl
  | ⟨1, _⟩ => rfl

/-- The count column at position `l`: when row `l` of the compared array `B` holds the id `a` in every lane, the lane
    sum of the 1.0 / 0.0 indicators of `a = r j` is the number of positions of the row `r` that hold `a`. -/
theorem count_col (B : IVec S512x512 32) (r : IVec S1x512 32) (hb : S1x512.Broadcasts S512x512)
    (hr : S512x512.Reduces [1] S512) (hφ : FKind.Formats .f32)
    (hacc : (0x00000000#32 : BitVec 32) = FKind.add.neutral .f32 hφ) (hc : S512.ShapeCasts S512x1)
    (l : Fin 512) (a : BitVec 32) (hB : ∀ j : Fin 512, B (ix2 l j) = a) :
    shapeCast S512x1
        (multiReduction .add [1] S512
          (select (cmpi .eq B (broadcastTo S512x512 r hb))
            (broadcast S512x512 (Scalar.ofBits (F := Ideal) .f32 0x3F800000#32))
            (broadcast S512x512 (Scalar.ofBits (F := Ideal) .f32 0x00000000#32)))
          0x00000000#32 hr hφ hacc) hc (ix2 l (0 : Fin 1))
      = Cooc.count a (fun j => r (ix2 (0 : Fin 1) j)) := by
  rw [shapeCast_a_a1_apply, Ideal.multiReduction_add_single]
  unfold Cooc.count
  refine Finset.sum_congr rfl fun (j : Fin 512) _ => ?_
  show Scalar.select (IntOp.cmpi .eq (B (hr.lift (ix1 l) j)) (broadcastTo S512x512 r hb (hr.lift (ix1 l) j)))
      (Ideal.ofBits .f32 0x3F800000#32) (Ideal.ofBits .f32 0x00000000#32) = if a = r (ix2 (0 : Fin 1) j) then (1 : EReal) else 0
  rw [lift_ix1 hr l j, select_cmpi_eq, hB j, broadcastTo_1b_ab_apply, word_one, Ideal.ofBits_zero_f32]

/-! ## The product with the second layer's weights -/

/-- The matrix unit's product into a zero accumulator, at `(l, e)`: the sum over the 128 hidden units of the left
    operand's row `l` times the right operand's column `e`. -/
theorem matmul_zero_apply (lhs : FVec Ideal S512x128 .f32) (rhs : FVec Ideal S128x128 .f32) (l : Fin 512) (e : Fin 128) :
    matmul dot_S512x128_S128x128_S512x128_1_0_0_1_n_n none lhs rhs (constant S512x128 .f32 0x00000000#32) (ix2 l e)
      = ∑ k : Fin 128, lhs (ix2 l k) * rhs (ix2 k e) := by
  show FloatOps.matmul _ none lhs rhs _ (ix2 l e) = _
  rw [Ideal.matmul_constant_zero_apply,
    ← Equiv.sum_comp (contrEquiv1 dot_S512x128_S128x128_S512x128_1_0_0_1_n_n 128 rfl rfl).symm]
  refine Finset.sum_congr rfl fun k _ => ?_
  have ck := contrEquiv1_symm_val dot_S512x128_S128x128_S512x128_1_0_0_1_n_n 128 rfl rfl k
  have hl : dot_S512x128_S128x128_S512x128_1_0_0_1_n_n.lhsIdx (ix2 l e) ((contrEquiv1 _ 128 rfl rfl).symm k) = ix2 l k := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact ck
  have hr : dot_S512x128_S128x128_S512x128_1_0_0_1_n_n.rhsIdx (ix2 l e) ((contrEquiv1 _ 128 rfl rfl).symm k) = ix2 k e := by
    funext ax; apply Fin.ext
    match ax with
    | ⟨0, _⟩ => simp [DotDims.rhsIdx, dot_S512x128_S128x128_S512x128_1_0_0_1_n_n]; exact ck
    | ⟨1, _⟩ => simp [DotDims.rhsIdx, dot_S512x128_S128x128_S512x128_1_0_0_1_n_n]; rfl
  rw [hl, hr]

/-! ## The pointwise steps -/

/-- A count column with 0.0 put where the position's id is the padding id 0. -/
theorem padded_apply (t : IVec S512x1 32) (c : FVec Ideal S512x1 .f32) (l : Fin 512) :
    select (cmpi .eq t (broadcast S512x1 0#32)) (broadcast S512x1 (Scalar.ofBits (F := Ideal) .f32 0x00000000#32)) c
        (ix2 l (0 : Fin 1))
      = if t (ix2 l (0 : Fin 1)) = 0#32 then 0 else c (ix2 l (0 : Fin 1)) := by
  show Scalar.select (IntOp.cmpi .eq (t (ix2 l (0 : Fin 1))) 0#32) (Ideal.ofBits .f32 0x00000000#32)
      (c (ix2 l (0 : Fin 1))) = _
  rw [select_cmpi_eq, Ideal.ofBits_zero_f32]

/-- The first layer before its relu, at position `l` and hidden unit `k`: the count times the weight plus the bias. -/
theorem preact_apply (c : FVec Ideal S512x1 .f32) (w1 b1 : FVec Ideal S1x128 .f32)
    (hc : S512x1.Broadcasts S512x128) (hw : S1x128.Broadcasts S512x128) (l : Fin 512) (k : Fin 128) :
    addf (mulf (broadcastTo S512x128 c hc) (broadcastTo S512x128 w1 hw)) (broadcastTo S512x128 b1 hw) (ix2 l k)
      = c (ix2 l (0 : Fin 1)) * w1 (ix2 (0 : Fin 1) k) + b1 (ix2 (0 : Fin 1) k) := by
  show broadcastTo S512x128 c hc (ix2 l k) * broadcastTo S512x128 w1 hw (ix2 l k) + broadcastTo S512x128 b1 hw (ix2 l k) = _
  rw [broadcastTo_a1_ab_apply, broadcastTo_1b_ab_apply, broadcastTo_1b_ab_apply]

/-- The first layer with its relu (a maximum with a 0.0 splat) is `hidden` at the count. -/
theorem hidden_apply (c : FVec Ideal S512x1 .f32) (w1 b1 : FVec Ideal S1x128 .f32)
    (hc : S512x1.Broadcasts S512x128) (hw : S1x128.Broadcasts S512x128) (l : Fin 512) (k : Fin 128) :
    maximumf (addf (mulf (broadcastTo S512x128 c hc) (broadcastTo S512x128 w1 hw)) (broadcastTo S512x128 b1 hw))
        (broadcast S512x128 (Scalar.ofBits (F := Ideal) .f32 0x00000000#32)) (ix2 l k)
      = hidden (fun k => w1 (ix2 (0 : Fin 1) k)) (fun k => b1 (ix2 (0 : Fin 1) k)) (c (ix2 l (0 : Fin 1))) k := by
  show max (addf (mulf (broadcastTo S512x128 c hc) (broadcastTo S512x128 w1 hw)) (broadcastTo S512x128 b1 hw) (ix2 l k))
      (Ideal.ofBits .f32 0x00000000#32) = _
  rw [preact_apply, Ideal.ofBits_zero_f32]
  rfl

/-! ## The payload fragments at an index -/

/-- The first bias, cast to its own shape, is itself. -/
theorem pay2_apply (b1 : Vec Ideal S1x128 .f32) (j : S1x128.Idx) : k0_pay2 (F := Ideal) b1 j = b1 j :=
  shapeCast_same_apply b1 _ j

/-- Twice the second bias. -/
theorem pay3_apply (b2 : Vec Ideal S1x128 .f32) (j : S1x128.Idx) : k0_pay3 (F := Ideal) b2 j = 2 * b2 j := by
  show Ideal.ofBits .f32 0x40000000#32 * shapeCast S1x128 b2 _ j = _
  rw [word_two, shapeCast_same_apply]

/-- The transposed row: position `l` of the column is lane `l` of the row. -/
theorem pay4_apply (s : Vec Ideal S1x512 .i32) (l : Fin 512) :
    k0_pay4 (F := Ideal) s (ix2 l (0 : Fin 1)) = s (ix2 (0 : Fin 1) l) :=
  transpose_ix2_apply s _ l 0

/-- The same for the destination ids' row. -/
theorem pay5_apply (d : Vec Ideal S1x512 .i32) (l : Fin 512) :
    k0_pay5 (F := Ideal) d (ix2 l (0 : Fin 1)) = d (ix2 (0 : Fin 1) l) :=
  transpose_ix2_apply d _ l 0

/-- The column broadcast over the lanes holds, in every lane of row `l`, the id at position `l`. -/
theorem bcol4_apply (s : Vec Ideal S1x512 .i32) (h : S512x1.Broadcasts S512x512) (l j : Fin 512) :
    broadcastTo S512x512 (k0_pay4 (F := Ideal) s) h (ix2 l j) = s (ix2 (0 : Fin 1) l) := by
  rw [broadcastTo_a1_ab_apply, pay4_apply]

/-- The same for the destination ids' column. -/
theorem bcol5_apply (d : Vec Ideal S1x512 .i32) (h : S512x1.Broadcasts S512x512) (l j : Fin 512) :
    broadcastTo S512x512 (k0_pay5 (F := Ideal) d) h (ix2 l j) = d (ix2 (0 : Fin 1) l) := by
  rw [broadcastTo_a1_ab_apply, pay5_apply]

/-- The four counts: the id at position `l` of one row, counted in a row. -/
theorem pay6_apply (s : Vec Ideal S1x512 .i32) (l : Fin 512) :
    k0_pay6 (F := Ideal) s (ix2 l (0 : Fin 1)) = Cooc.count (s (ix2 (0 : Fin 1) l)) (fun j => s (ix2 (0 : Fin 1) j)) :=
  count_col _ s _ _ _ _ _ l _ (fun j => bcol4_apply s _ l j)

/-- A source id counted among the destination ids. -/
theorem pay7_apply (s d : Vec Ideal S1x512 .i32) (l : Fin 512) :
    k0_pay7 (F := Ideal) s d (ix2 l (0 : Fin 1)) = Cooc.count (s (ix2 (0 : Fin 1) l)) (fun j => d (ix2 (0 : Fin 1) j)) :=
  count_col _ d _ _ _ _ _ l _ (fun j => bcol4_apply s _ l j)

/-- A destination id counted among the source ids. -/
theorem pay8_apply (s d : Vec Ideal S1x512 .i32) (l : Fin 512) :
    k0_pay8 (F := Ideal) s d (ix2 l (0 : Fin 1)) = Cooc.count (d (ix2 (0 : Fin 1) l)) (fun j => s (ix2 (0 : Fin 1) j)) :=
  count_col _ s _ _ _ _ _ l _ (fun j => bcol5_apply d _ l j)

/-- The two hidden arrays of the source ids, added: the first layer at the two padded counts. -/
theorem pay11_apply (w1 : Vec Ideal S1x128 .f32) (b1' : FVec Ideal S1x128 .f32) (t : IVec S512x1 32)
    (c1 c2 : FVec Ideal S512x1 .f32) (l : Fin 512) (k : Fin 128) :
    k0_pay11 (F := Ideal) w1 b1' t c1 c2 (ix2 l k)
      = hidden (fun k => w1 (ix2 (0 : Fin 1) k)) (fun k => b1' (ix2 (0 : Fin 1) k))
            (if t (ix2 l (0 : Fin 1)) = 0#32 then 0 else c1 (ix2 l (0 : Fin 1))) k
        + hidden (fun k => w1 (ix2 (0 : Fin 1) k)) (fun k => b1' (ix2 (0 : Fin 1) k))
            (if t (ix2 l (0 : Fin 1)) = 0#32 then 0 else c2 (ix2 l (0 : Fin 1))) k := by
  simp only [k0_pay11]
  rw [addf_apply, hidden_apply, hidden_apply, padded_apply, padded_apply]

/-- The hidden array of the destination ids' count among the source ids. -/
theorem pay12_apply (w1 : Vec Ideal S1x128 .f32) (b1' : FVec Ideal S1x128 .f32) (t : IVec S512x1 32)
    (c : FVec Ideal S512x1 .f32) (l : Fin 512) (k : Fin 128) :
    k0_pay12 (F := Ideal) w1 b1' t c (ix2 l k)
      = hidden (fun k => w1 (ix2 (0 : Fin 1) k)) (fun k => b1' (ix2 (0 : Fin 1) k))
            (if t (ix2 l (0 : Fin 1)) = 0#32 then 0 else c (ix2 l (0 : Fin 1))) k := by
  simp only [k0_pay12, k0_pay10]
  rw [hidden_apply, padded_apply]

/-- The first layer, before its relu, at the destination ids' padded count among the destination ids. -/
theorem pay13_apply (w1 : Vec Ideal S1x128 .f32) (b1' : FVec Ideal S1x128 .f32) (d : Vec Ideal S1x512 .i32)
    (l : Fin 512) (k : Fin 128) :
    k0_pay13 (F := Ideal) w1 b1' d (k0_pay5 (F := Ideal) d) (k0_pay9 (F := Ideal) d) (ix2 l k)
      = (if d (ix2 (0 : Fin 1) l) = 0#32 then 0
          else Cooc.count (d (ix2 (0 : Fin 1) l)) (fun j => d (ix2 (0 : Fin 1) j))) * w1 (ix2 (0 : Fin 1) k)
        + b1' (ix2 (0 : Fin 1) k) := by
  simp only [k0_pay13, k0_pay10, k0_pay9]
  rw [preact_apply, padded_apply, pay5_apply]
  show (if d (ix2 (0 : Fin 1) l) = 0#32 then 0 else k0_pay7 (F := Ideal) d d (ix2 l (0 : Fin 1))) * w1 (ix2 (0 : Fin 1) k)
      + b1' (ix2 (0 : Fin 1) k) = _
  rw [pay7_apply]

/-- The 0.0 splat the destination side's relu compares against. -/
theorem pay14_apply (j : S512x128.Idx) : k0_pay14 (F := Ideal) j = 0 := Ideal.ofBits_zero_f32

/-- The source store: the product of the added hidden arrays with the second layer's weights, plus the doubled bias. -/
theorem pay15_apply (W2 : Vec Ideal S128x128 .f32) (v7 : FVec Ideal S1x128 .f32) (v70 : FVec Ideal S512x128 .f32)
    (l : Fin 512) (e : Fin 128) :
    k0_pay15 (F := Ideal) W2 v7 v70 (ix3 (0 : Fin 1) l e)
      = (∑ k : Fin 128, v70 (ix2 l k) * W2 (ix2 k e)) + v7 (ix2 (0 : Fin 1) e) := by
  simp only [k0_pay15]
  rw [shapeCast_ab_1ab_apply, addf_apply, matmul_zero_apply, broadcastTo_1b_ab_apply]

/-- The destination store, whose second hidden array gets its relu here. -/
theorem pay16_apply (W2 : Vec Ideal S128x128 .f32) (v7 : FVec Ideal S1x128 .f32) (v77 v82 v83 : FVec Ideal S512x128 .f32)
    (l : Fin 512) (e : Fin 128) :
    k0_pay16 (F := Ideal) W2 v7 v77 v82 v83 (ix3 (0 : Fin 1) l e)
      = (∑ k : Fin 128, (v77 (ix2 l k) + max (v82 (ix2 l k)) (v83 (ix2 l k))) * W2 (ix2 k e)) + v7 (ix2 (0 : Fin 1) e) := by
  simp only [k0_pay16]
  rw [shapeCast_ab_1ab_apply, addf_apply, matmul_zero_apply, broadcastTo_1b_ab_apply]
  rfl

/-- At position l and feature e the source row's store is the encoder's element for the id `s l`, counted in `s` and
    in `d`. -/
theorem rowS_apply (w1 b1 : Vec Ideal S1x128 .f32) (W2 : Vec Ideal S128x128 .f32) (b2 : Vec Ideal S1x128 .f32)
    (s d : Vec Ideal S1x512 .i32) (l : Fin 512) (e : Fin 128) :
    rowS (F := Ideal) w1 b1 W2 b2 s d (ix3 (0 : Fin 1) l e)
      = encAt (s (ix2 (0 : Fin 1) l)) (fun j => s (ix2 (0 : Fin 1) j)) (fun j => d (ix2 (0 : Fin 1) j))
          (fun k => w1 (ix2 (0 : Fin 1) k)) (fun k => b1 (ix2 (0 : Fin 1) k)) (fun k => W2 (ix2 k e)) (b2 (ix2 (0 : Fin 1) e)) := by
  unfold rowS encAt
  rw [pay15_apply, pay3_apply]
  refine congrArg (· + 2 * b2 (ix2 (0 : Fin 1) e)) (Finset.sum_congr rfl fun k _ => ?_)
  rw [pay11_apply, pay4_apply, pay6_apply, pay7_apply]
  simp only [pay2_apply]
  rfl

/-- At position l and feature e the destination row's store is the encoder's element for the id `d l`, counted in `s`
    and in `d`. -/
theorem rowD_apply (w1 b1 : Vec Ideal S1x128 .f32) (W2 : Vec Ideal S128x128 .f32) (b2 : Vec Ideal S1x128 .f32)
    (s d : Vec Ideal S1x512 .i32) (l : Fin 512) (e : Fin 128) :
    rowD (F := Ideal) w1 b1 W2 b2 s d (ix3 (0 : Fin 1) l e)
      = encAt (d (ix2 (0 : Fin 1) l)) (fun j => s (ix2 (0 : Fin 1) j)) (fun j => d (ix2 (0 : Fin 1) j))
          (fun k => w1 (ix2 (0 : Fin 1) k)) (fun k => b1 (ix2 (0 : Fin 1) k)) (fun k => W2 (ix2 k e)) (b2 (ix2 (0 : Fin 1) e)) := by
  unfold rowD encAt
  rw [pay16_apply, pay3_apply]
  refine congrArg (· + 2 * b2 (ix2 (0 : Fin 1) e)) (Finset.sum_congr rfl fun k _ => ?_)
  rw [pay12_apply, pay13_apply, pay14_apply, pay5_apply, pay8_apply]
  simp only [pay2_apply]
  rfl

end Cert.KernelIdeal.Row

end
-- ==== Proof.Blocks.lean ====
/-
  From the rows the body stores to the two result arrays.

  A grid point t handles batch rows 8t … 8t + 7: its blocks of the two id arrays are those rows, the weight blocks are
  the whole weight arrays, and its two output blocks are rows 8t … 8t + 7 of the results. The body fills an output
  block one row at a time, and every row's store is the encoder's element function of that row's ids; so the whole
  block is one function of the input blocks (`blkEnc`), the block a point writes back is the point's block of one
  whole-array function (`Cooc.encOf` of the argument arrays), the 32 blocks cover the result, and the result array
  ends holding that function.
-/
import proofs.«180339_g1889785610786_pilotgen1_543_2_alg».proof.Proof.Gen.KernelIdeal.Value
import proofs.«180339_g1889785610786_pilotgen1_543_2_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx Cooc
open Idealize.ShloMosaic.Pipeline (Dat)

theorem hz2 : (![0, 0] : Fin 2 → Nat) = fun _ => 0 := funext fun a => by fin_cases a <;> rfl

/-! ## One output block as a function of the input blocks -/

/-- The output block for the ids `own` (one of the two id blocks): at (r, l, e) the encoder's element for the id at
    (r, l), counted in row r of each id block. -/
def blkEnc (own x0 x1 : Vec Ideal S8x512 .i32) (x2 x3 : Vec Ideal S1x128 .f32) (x4 : Vec Ideal S128x128 .f32)
    (x5 : Vec Ideal S1x128 .f32) : Vec Ideal S8x512x128 .f32 :=
  fun y => encAt (own (ix2 (y 0) (y 1))) (fun j => x0 (ix2 (y 0) j)) (fun j => x1 (ix2 (y 0) j))
    (fun k => x2 (ix2 (0 : Fin 1) k)) (fun k => x3 (ix2 (0 : Fin 1) k)) (fun k => x4 (ix2 k (y 2))) (x5 (ix2 (0 : Fin 1) (y 2)))

/-- A load of row `o` of an id block reads that row. -/
theorem ld_row (X : Vec Ideal S8x512 .i32) (o : Nat) (r : Fin 8) (ho : r.val = o)
    (inb : ∀ a, (![o, 0] : Fin 2 → Nat) a + S1x512.size a ≤ S8x512.size a) (j : Fin 512) :
    View.ld X (Rect.unit (s := S8x512) ![o, 0] S1x512.size inb) (ix2 (0 : Fin 1) j) = X (ix2 r j) := by
  show X ((Rect.unit (s := S8x512) ![o, 0] S1x512.size inb).emb (ix2 (0 : Fin 1) j)) = X (ix2 r j)
  refine congrArg X (funext fun a => Fin.ext ?_)
  match a with
  | ⟨0, _⟩ => show o + 1 * 0 = r.val; omega
  | ⟨1, _⟩ => show 0 + 1 * j.val = j.val; omega

/-- Row `o` of an output block, at (0, l, e), is the block's index (o, l, e). -/
theorem emb_slab (o : Nat) (r : Fin 8) (ho : r.val = o)
    (inb : ∀ a, (![o, 0, 0] : Fin 3 → Nat) a + S1x512x128.size a ≤ S8x512x128.size a) (l : Fin 512) (e : Fin 128) :
    (Rect.unit (s := S8x512x128) ![o, 0, 0] S1x512x128.size inb).emb (ix3 (0 : Fin 1) l e) = ix3 r l e := by
  funext a; apply Fin.ext
  match a with
  | ⟨0, _⟩ => show o + 1 * 0 = r.val; omega
  | ⟨1, _⟩ => show 0 + 1 * l.val = l.val; omega
  | ⟨2, _⟩ => show 0 + 1 * e.val = e.val; omega

/-- The store of row `o` of the source ids' output block is that row of `blkEnc`. -/
theorem pieceS (x0 x1 : Vec Ideal S8x512 .i32) (x2 x3 : Vec Ideal S1x128 .f32) (x4 : Vec Ideal S128x128 .f32)
    (x5 : Vec Ideal S1x128 .f32) (o : Nat) (r : Fin 8) (ho : r.val = o)
    (inbI : ∀ a, (![o, 0] : Fin 2 → Nat) a + S1x512.size a ≤ S8x512.size a)
    (inbO : ∀ a, (![o, 0, 0] : Fin 3 → Nat) a + S1x512x128.size a ≤ S8x512x128.size a)
    (x : (Rect.unit (s := S8x512x128) ![o, 0, 0] S1x512x128.size inbO).shape.Idx) :
    rowS (F := Ideal) (View.ld x2 r0_0) (View.ld x3 r0_0) (View.ld x4 r0_1) (View.ld x5 r0_0)
        (View.ld x0 (Rect.unit (s := S8x512) ![o, 0] S1x512.size inbI))
        (View.ld x1 (Rect.unit (s := S8x512) ![o, 0] S1x512.size inbI)) x
      = blkEnc x0 x0 x1 x2 x3 x4 x5 ((Rect.unit (s := S8x512x128) ![o, 0, 0] S1x512x128.size inbO).emb x) := by
  obtain ⟨z, l, e, rfl⟩ : ∃ (z : Fin 1) (l : Fin 512) (e : Fin 128), x = ix3 z l e := ⟨x 0, x 1, x 2, eq_ix3 x⟩
  obtain rfl : z = 0 := Subsingleton.elim _ _
  rw [rowS_apply, emb_slab o r ho inbO l e]
  show encAt _ _ _ _ _ _ _ = encAt (x0 (ix2 r l)) (fun j => x0 (ix2 r j)) (fun j => x1 (ix2 r j))
    (fun k => x2 (ix2 (0 : Fin 1) k)) (fun k => x3 (ix2 (0 : Fin 1) k)) (fun k => x4 (ix2 k e)) (x5 (ix2 (0 : Fin 1) e))
  refine congr (congr (congr (congr (congr (congr (congrArg encAt ?_) ?_) ?_) ?_) ?_) ?_) ?_
  · exact ld_row x0 o r ho inbI l
  · exact funext fun j => ld_row x0 o r ho inbI j
  · exact funext fun j => ld_row x1 o r ho inbI j
  · exact funext fun k => congrFun (View.ld_unit_zero (S := S1x128) hz2 _ x2) (ix2 (0 : Fin 1) k)
  · exact funext fun k => congrFun (View.ld_unit_zero (S := S1x128) hz2 _ x3) (ix2 (0 : Fin 1) k)
  · exact funext fun k => congrFun (View.ld_unit_zero (S := S128x128) hz2 _ x4) (ix2 k e)
  · exact congrFun (View.ld_unit_zero (S := S1x128) hz2 _ x5) (ix2 (0 : Fin 1) e)

/-- The store of row `o` of the destination ids' output block is that row of `blkEnc`. -/
theorem pieceD (x0 x1 : Vec Ideal S8x512 .i32) (x2 x3 : Vec Ideal S1x128 .f32) (x4 : Vec Ideal S128x128 .f32)
    (x5 : Vec Ideal S1x128 .f32) (o : Nat) (r : Fin 8) (ho : r.val = o)
    (inbI : ∀ a, (![o, 0] : Fin 2 → Nat) a + S1x512.size a ≤ S8x512.size a)
    (inbO : ∀ a, (![o, 0, 0] : Fin 3 → Nat) a + S1x512x128.size a ≤ S8x512x128.size a)
    (x : (Rect.unit (s := S8x512x128) ![o, 0, 0] S1x512x128.size inbO).shape.Idx) :
    rowD (F := Ideal) (View.ld x2 r0_0) (View.ld x3 r0_0) (View.ld x4 r0_1) (View.ld x5 r0_0)
        (View.ld x0 (Rect.unit (s := S8x512) ![o, 0] S1x512.size inbI))
        (View.ld x1 (Rect.unit (s := S8x512) ![o, 0] S1x512.size inbI)) x
      = blkEnc x1 x0 x1 x2 x3 x4 x5 ((Rect.unit (s := S8x512x128) ![o, 0, 0] S1x512x128.size inbO).emb x) := by
  obtain ⟨z, l, e, rfl⟩ : ∃ (z : Fin 1) (l : Fin 512) (e : Fin 128), x = ix3 z l e := ⟨x 0, x 1, x 2, eq_ix3 x⟩
  obtain rfl : z = 0 := Subsingleton.elim _ _
  rw [rowD_apply, emb_slab o r ho inbO l e]
  show encAt _ _ _ _ _ _ _ = encAt (x1 (ix2 r l)) (fun j => x0 (ix2 r j)) (fun j => x1 (ix2 r j))
    (fun k => x2 (ix2 (0 : Fin 1) k)) (fun k => x3 (ix2 (0 : Fin 1) k)) (fun k => x4 (ix2 k e)) (x5 (ix2 (0 : Fin 1) e))
  refine congr (congr (congr (congr (congr (congr (congrArg encAt ?_) ?_) ?_) ?_) ?_) ?_) ?_
  · exact ld_row x1 o r ho inbI l
  · exact funext fun j => ld_row x0 o r ho inbI j
  · exact funext fun j => ld_row x1 o r ho inbI j
  · exact funext fun k => congrFun (View.ld_unit_zero (S := S1x128) hz2 _ x2) (ix2 (0 : Fin 1) k)
  · exact funext fun k => congrFun (View.ld_unit_zero (S := S1x128) hz2 _ x3) (ix2 (0 : Fin 1) k)
  · exact funext fun k => congrFun (View.ld_unit_zero (S := S128x128) hz2 _ x4) (ix2 k e)
  · exact congrFun (View.ld_unit_zero (S := S1x128) hz2 _ x5) (ix2 (0 : Fin 1) e)

/-- The source ids' output block after the body: its eight row stores are the eight rows of `blkEnc`. -/
theorem outS_eq (x0 x1 : Vec Ideal S8x512 .i32) (x2 x3 : Vec Ideal S1x128 .f32) (x4 : Vec Ideal S128x128 .f32)
    (x5 : Vec Ideal S1x128 .f32) : out0_6 (F := Ideal) x0 x1 x2 x3 x4 x5 = blkEnc x0 x0 x1 x2 x3 x4 x5 := by
  funext y
  unfold out0_6
  refine View.canon_apply_of_pieces (blkEnc x0 x0 x1 x2 x3 x4 x5) _ ?_ y (cover0_6 _ _ _ _ _ _ _ _ y)
  intro p hp x
  simp only [List.mem_cons, List.not_mem_nil, or_false] at hp
  rcases hp with rfl | rfl | rfl | rfl | rfl | rfl | rfl | rfl
  · exact pieceS x0 x1 x2 x3 x4 x5 7 7 rfl (fun a => by fin_cases a <;> decide) (fun a => by fin_cases a <;> decide) x
  · exact pieceS x0 x1 x2 x3 x4 x5 6 6 rfl (fun a => by fin_cases a <;> decide) (fun a => by fin_cases a <;> decide) x
  · exact pieceS x0 x1 x2 x3 x4 x5 5 5 rfl (fun a => by fin_cases a <;> decide) (fun a => by fin_cases a <;> decide) x
  · exact pieceS x0 x1 x2 x3 x4 x5 4 4 rfl (fun a => by fin_cases a <;> decide) (fun a => by fin_cases a <;> decide) x
  · exact pieceS x0 x1 x2 x3 x4 x5 3 3 rfl (fun a => by fin_cases a <;> decide) (fun a => by fin_cases a <;> decide) x
  · exact pieceS x0 x1 x2 x3 x4 x5 2 2 rfl (fun a => by fin_cases a <;> decide) (fun a => by fin_cases a <;> decide) x
  · exact pieceS x0 x1 x2 x3 x4 x5 1 1 rfl (fun a => by fin_cases a <;> decide) (fun a => by fin_cases a <;> decide) x
  · exact pieceS x0 x1 x2 x3 x4 x5 0 0 rfl (fun a => by fin_cases a <;> decide) (fun a => by fin_cases a <;> decide) x

/-- The destination ids' output block after the body. -/
theorem outD_eq (x0 x1 : Vec Ideal S8x512 .i32) (x2 x3 : Vec Ideal S1x128 .f32) (x4 : Vec Ideal S128x128 .f32)
    (x5 : Vec Ideal S1x128 .f32) : out0_7 (F := Ideal) x0 x1 x2 x3 x4 x5 = blkEnc x1 x0 x1 x2 x3 x4 x5 := by
  funext y
  unfold out0_7
  refine View.canon_apply_of_pieces (blkEnc x1 x0 x1 x2 x3 x4 x5) _ ?_ y (cover0_7 _ _ _ _ _ _ _ _ y)
  intro p hp x
  simp only [List.mem_cons, List.not_mem_nil, or_false] at hp
  rcases hp with rfl | rfl | rfl | rfl | rfl | rfl | rfl | rfl
  · exact pieceD x0 x1 x2 x3 x4 x5 7 7 rfl (fun a => by fin_cases a <;> decide) (fun a => by fin_cases a <;> decide) x
  · exact pieceD x0 x1 x2 x3 x4 x5 6 6 rfl (fun a => by fin_cases a <;> decide) (fun a => by fin_cases a <;> decide) x
  · exact pieceD x0 x1 x2 x3 x4 x5 5 5 rfl (fun a => by fin_cases a <;> decide) (fun a => by fin_cases a <;> decide) x
  · exact pieceD x0 x1 x2 x3 x4 x5 4 4 rfl (fun a => by fin_cases a <;> decide) (fun a => by fin_cases a <;> decide) x
  · exact pieceD x0 x1 x2 x3 x4 x5 3 3 rfl (fun a => by fin_cases a <;> decide) (fun a => by fin_cases a <;> decide) x
  · exact pieceD x0 x1 x2 x3 x4 x5 2 2 rfl (fun a => by fin_cases a <;> decide) (fun a => by fin_cases a <;> decide) x
  · exact pieceD x0 x1 x2 x3 x4 x5 1 1 rfl (fun a => by fin_cases a <;> decide) (fun a => by fin_cases a <;> decide) x
  · exact pieceD x0 x1 x2 x3 x4 x5 0 0 rfl (fun a => by fin_cases a <;> decide) (fun a => by fin_cases a <;> decide) x

/-! ## The blocks as parts of the argument arrays -/

variable (m : (ℓ : Loc nD τ sig) → Buf (Elt Ideal) ℓ) (ρ : Dev nD → PrngReg)

/-- The printed index maps over the 32 grid points: the id blocks and the output blocks move with the point along
    the batch axis, the weight blocks stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The first bias as the region finds it: the bias array given a leading unit axis. -/
theorem V_bias1 (c : Dev nD) :
    (V m c main_v0 : S1x128.Idx → EReal) = shapeCast S1x128 (m ((c : Thread nD τ).loc main_arg3)) shapeCasts_S128_S1x128 := by
  dsimp only [Gen.V, Gen.hostOps0]
  after_results
  rfl

/-- The second bias as the region finds it. -/
theorem V_bias2 (c : Dev nD) :
    (V m c main_v1 : S1x128.Idx → EReal) = shapeCast S1x128 (m ((c : Thread nD τ).loc main_arg5)) shapeCasts_S128_S1x128 := by
  dsimp only [Gen.V, Gen.hostOps0]
  after_results
  rfl

/-- A bias with a leading unit axis, at (0, k), is the bias at k. -/
theorem bias_apply (v : S128.Idx → EReal) (k : Fin 128) :
    shapeCast S1x128 v shapeCasts_S128_S1x128 (ix2 (0 : Fin 1) k) = v (ix1 k) := by
  refine (shapeCast_addUnit_apply (![128] : Fin 1 → Nat) v shapeCasts_S128_S1x128 (ix2 (0 : Fin 1) k)).trans ?_
  exact congrArg v (funext fun a => by match a with | ⟨0, _⟩ => rfl)

/-- Row r of point t's block of the source ids is row 8t + r of the source ids. -/
theorem ids0_apply (c : Dev nD) (t : Fin cfg0.N) (r : Fin 8) (j : Fin 512) (k : S256x512.Idx)
    (hk0 : (k 0).val = 8 * t.val + r.val) (hk1 : (k 1).val = j.val) :
    (iblk m c 0 t : Vec Ideal S8x512 .i32) (ix2 r j) = (m ((c : Thread nD τ).loc main_arg0) : Vec Ideal S256x512 .i32) k := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t 0 * 8 + 1 * r.val = (k 0).val; rw [e0, hk0]; omega
  | ⟨1, _⟩ => show win0_0.index t 1 * 512 + 1 * j.val = (k 1).val; rw [e1, hk1]; omega

/-- Row r of point t's block of the destination ids is row 8t + r of the destination ids. -/
theorem ids1_apply (c : Dev nD) (t : Fin cfg0.N) (r : Fin 8) (j : Fin 512) (k : S256x512.Idx)
    (hk0 : (k 0).val = 8 * t.val + r.val) (hk1 : (k 1).val = j.val) :
    (iblk m c 1 t : Vec Ideal S8x512 .i32) (ix2 r j) = (m ((c : Thread nD τ).loc main_arg1) : Vec Ideal S256x512 .i32) k := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t 0 * 8 + 1 * r.val = (k 0).val; rw [e0, hk0]; omega
  | ⟨1, _⟩ => show win0_1.index t 1 * 512 + 1 * j.val = (k 1).val; rw [e1, hk1]; omega

/-- The first layer's weights' block is the weight array. -/
theorem w1_apply (c : Dev nD) (t : Fin cfg0.N) (k : Fin 128) :
    (iblk m c 2 t : Vec Ideal S1x128 .f32) (ix2 (0 : Fin 1) k) = (m ((c : Thread nD τ).loc main_arg2) : Vec Ideal S1x128 .f32) (ix2 (0 : Fin 1) k) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t 0 * 1 + 1 * 0 = 0; rw [e0]
  | ⟨1, _⟩ => show win0_2.index t 1 * 128 + 1 * k.val = k.val; rw [e1]; omega

/-- The first bias's block is the bias array. -/
theorem b1_apply (c : Dev nD) (t : Fin cfg0.N) (k : Fin 128) :
    (iblk m c 3 t : Vec Ideal S1x128 .f32) (ix2 (0 : Fin 1) k) = (m ((c : Thread nD τ).loc main_arg3) : Vec Ideal S128 .f32) (ix1 k) := by
  obtain ⟨-, -, -, -, -, -, e0, e1, -⟩ := idx_facts t
  unfold iblk
  rw [View.read_apply]
  show V m c main_v0 _ = _
  rw [V_bias1]
  refine Eq.trans (congrArg _ (funext fun a => Fin.ext ?_)) (bias_apply _ k)
  match a with
  | ⟨0, _⟩ => show win0_3.index t 0 * 1 + 1 * 0 = 0; rw [e0]
  | ⟨1, _⟩ => show win0_3.index t 1 * 128 + 1 * k.val = k.val; rw [e1]; omega

/-- The second layer's weights' block is the weight array. -/
theorem w2_apply (c : Dev nD) (t : Fin cfg0.N) (k e : Fin 128) :
    (iblk m c 4 t : Vec Ideal S128x128 .f32) (ix2 k e) = (m ((c : Thread nD τ).loc main_arg4) : Vec Ideal S128x128 .f32) (ix2 k e) := by
  obtain ⟨-, -, -, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_4.index t 0 * 128 + 1 * k.val = k.val; rw [e0]; omega
  | ⟨1, _⟩ => show win0_4.index t 1 * 128 + 1 * e.val = e.val; rw [e1]; omega

/-- The second bias's block is the bias array. -/
theorem b2_apply (c : Dev nD) (t : Fin cfg0.N) (k : Fin 128) :
    (iblk m c 5 t : Vec Ideal S1x128 .f32) (ix2 (0 : Fin 1) k) = (m ((c : Thread nD τ).loc main_arg5) : Vec Ideal S128 .f32) (ix1 k) := by
  obtain ⟨-, -, -, -, -, -, -, -, -, -, e0, e1, -⟩ := idx_facts t
  unfold iblk
  rw [View.read_apply]
  show V m c main_v1 _ = _
  rw [V_bias2]
  refine Eq.trans (congrArg _ (funext fun a => Fin.ext ?_)) (bias_apply _ k)
  match a with
  | ⟨0, _⟩ => show win0_5.index t 0 * 1 + 1 * 0 = 0; rw [e0]
  | ⟨1, _⟩ => show win0_5.index t 1 * 128 + 1 * k.val = k.val; rw [e1]; omega

/-! ## What a point writes back, the cover, the result arrays -/

/-- The source ids' features as one function of the argument arrays. -/
abbrev resS (c : Dev nD) : Vec Ideal S256x512x128 .f32 :=
  encOf (m ((c : Thread nD τ).loc main_arg0)) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The destination ids' features as one function of the argument arrays. -/
abbrev resD (c : Dev nD) : Vec Ideal S256x512x128 .f32 :=
  encOf (m ((c : Thread nD τ).loc main_arg1)) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Point t writes back, for the source ids, rows 8t … 8t + 7 of `resS`. -/
theorem flushedS_eq (c : Dev nD) (t : Fin cfg0.N) :
    (dats m 0 c).flushed 6 t = ((cfg0.win 6).blk t).view.read (Elt Ideal) (resS m c) := by
  rw [Value.flushed6, outS_eq]
  obtain ⟨-, -, -, -, -, -, -, -, -, -, -, -, e0, e1, e2, -⟩ := idx_facts t
  funext y
  obtain ⟨r, l, e, rfl⟩ : ∃ (r : Fin 8) (l : Fin 512) (e : Fin 128), y = ix3 r l e := ⟨y 0, y 1, y 2, eq_ix3 y⟩
  have h0 : ((((cfg0.win 6).blk t).view.emb (ix3 r l e)) 0).val = 8 * t.val + r.val := by
    show win0_6.index t 0 * 8 + 1 * r.val = _; rw [e0]; omega
  have h1 : ((((cfg0.win 6).blk t).view.emb (ix3 r l e)) 1).val = l.val := by
    show win0_6.index t 1 * 512 + 1 * l.val = _; rw [e1]; omega
  have h2 : ((((cfg0.win 6).blk t).view.emb (ix3 r l e)) 2).val = e.val := by
    show win0_6.index t 2 * 128 + 1 * e.val = _; rw [e2]; omega
  show encAt _ _ _ _ _ _ _ = encAt _ _ _ _ _ _ _
  refine congr (congr (congr (congr (congr (congr (congrArg encAt ?_) ?_) ?_) ?_) ?_) ?_) ?_
  · exact ids0_apply m c t r l _ h0 h1
  · exact funext fun j => ids0_apply m c t r j _ h0 rfl
  · exact funext fun j => ids1_apply m c t r j _ h0 rfl
  · exact funext fun k => w1_apply m c t k
  · exact funext fun k => b1_apply m c t k
  · exact funext fun k => (w2_apply m c t k e).trans (congrArg _ (funext fun a => Fin.ext (by
      match a with
      | ⟨0, _⟩ => rfl
      | ⟨1, _⟩ => exact h2.symm)))
  · exact (b2_apply m c t e).trans (congrArg _ (funext fun a => Fin.ext (by
      match a with
      | ⟨0, _⟩ => exact h2.symm)))

/-- Point t writes back, for the destination ids, rows 8t … 8t + 7 of `resD`. -/
theorem flushedD_eq (c : Dev nD) (t : Fin cfg0.N) :
    (dats m 0 c).flushed 7 t = ((cfg0.win 7).blk t).view.read (Elt Ideal) (resD m c) := by
  rw [Value.flushed7, outD_eq]
  obtain ⟨-, -, -, -, -, -, -, -, -, -, -, -, -, -, -, e0, e1, e2⟩ := idx_facts t
  funext y
  obtain ⟨r, l, e, rfl⟩ : ∃ (r : Fin 8) (l : Fin 512) (e : Fin 128), y = ix3 r l e := ⟨y 0, y 1, y 2, eq_ix3 y⟩
  have h0 : ((((cfg0.win 7).blk t).view.emb (ix3 r l e)) 0).val = 8 * t.val + r.val := by
    show win0_7.index t 0 * 8 + 1 * r.val = _; rw [e0]; omega
  have h1 : ((((cfg0.win 7).blk t).view.emb (ix3 r l e)) 1).val = l.val := by
    show win0_7.index t 1 * 512 + 1 * l.val = _; rw [e1]; omega
  have h2 : ((((cfg0.win 7).blk t).view.emb (ix3 r l e)) 2).val = e.val := by
    show win0_7.index t 2 * 128 + 1 * e.val = _; rw [e2]; omega
  show encAt _ _ _ _ _ _ _ = encAt _ _ _ _ _ _ _
  refine congr (congr (congr (congr (congr (congr (congrArg encAt ?_) ?_) ?_) ?_) ?_) ?_) ?_
  · exact ids1_apply m c t r l _ h0 h1
  · exact funext fun j => ids0_apply m c t r j _ h0 rfl
  · exact funext fun j => ids1_apply m c t r j _ h0 rfl
  · exact funext fun k => w1_apply m c t k
  · exact funext fun k => b1_apply m c t k
  · exact funext fun k => (w2_apply m c t k e).trans (congrArg _ (funext fun a => Fin.ext (by
      match a with
      | ⟨0, _⟩ => rfl
      | ⟨1, _⟩ => exact h2.symm)))
  · exact (b2_apply m c t e).trans (congrArg _ (funext fun a => Fin.ext (by
      match a with
      | ⟨0, _⟩ => exact h2.symm)))

/-- An index is in point t's block of the first result iff each coordinate is in the block's range on its axis. -/
theorem mem_blkS (t : Fin cfg0.N) (i : S256x512x128.Idx) :
    i ∈ ((cfg0.win 6).blk t).view.set ↔ ∀ a : Fin 3, win0_6.index t a * S8x512x128.size a ≤ (i a).val ∧ (i a).val < win0_6.index t a * S8x512x128.size a + S8x512x128.size a := by
  show i ∈ ((View.whole main_v2_0).slice (win0_6.rect t)).set ↔ _
  rw [View.set_slice_whole, Rect.mem_set_unit]
  exact Iff.rfl

/-- The same for the second result. -/
theorem mem_blkD (t : Fin cfg0.N) (i : S256x512x128.Idx) :
    i ∈ ((cfg0.win 7).blk t).view.set ↔ ∀ a : Fin 3, win0_7.index t a * S8x512x128.size a ≤ (i a).val ∧ (i a).val < win0_7.index t a * S8x512x128.size a + S8x512x128.size a := by
  show i ∈ ((View.whole main_v2_1).slice (win0_7.rect t)).set ↔ _
  rw [View.set_slice_whole, Rect.mem_set_unit]
  exact Iff.rfl

/-- Batch row b of the first result is in the block of point b / 8. -/
theorem coverS (i : S256x512x128.Idx) : ∃ t : Fin cfg0.N, (cfg0.win 6).flush t = true ∧ i ∈ ((cfg0.win 6).blk t).view.set := by
  have hi0 : (i 0).val < 256 := (i 0).isLt
  have hi1 : (i 1).val < 512 := (i 1).isLt
  have hi2 : (i 2).val < 128 := (i 2).isLt
  have hN : cfg0.N = 32 := N_0
  have ht : (i 0).val / 8 < cfg0.N := by rw [hN]; omega
  obtain ⟨-, -, -, -, -, -, -, -, -, -, -, -, e0, e1, e2, -⟩ := idx_facts ⟨(i 0).val / 8, ht⟩
  refine ⟨⟨(i 0).val / 8, ht⟩, flush0_6 _, ?_⟩
  rw [mem_blkS]
  intro a
  match a with
  | ⟨0, _⟩ => show win0_6.index ⟨(i 0).val / 8, ht⟩ (0 : Fin 3) * 8 ≤ (i 0).val ∧ (i 0).val < win0_6.index ⟨(i 0).val / 8, ht⟩ (0 : Fin 3) * 8 + 8; rw [e0]; show (i 0).val / 8 * 8 ≤ (i 0).val ∧ (i 0).val < (i 0).val / 8 * 8 + 8; omega
  | ⟨1, _⟩ => show win0_6.index ⟨(i 0).val / 8, ht⟩ (1 : Fin 3) * 512 ≤ (i 1).val ∧ (i 1).val < win0_6.index ⟨(i 0).val / 8, ht⟩ (1 : Fin 3) * 512 + 512; rw [e1]; omega
  | ⟨2, _⟩ => show win0_6.index ⟨(i 0).val / 8, ht⟩ (2 : Fin 3) * 128 ≤ (i 2).val ∧ (i 2).val < win0_6.index ⟨(i 0).val / 8, ht⟩ (2 : Fin 3) * 128 + 128; rw [e2]; omega

/-- The same for the second result. -/
theorem coverD (i : S256x512x128.Idx) : ∃ t : Fin cfg0.N, (cfg0.win 7).flush t = true ∧ i ∈ ((cfg0.win 7).blk t).view.set := by
  have hi0 : (i 0).val < 256 := (i 0).isLt
  have hi1 : (i 1).val < 512 := (i 1).isLt
  have hi2 : (i 2).val < 128 := (i 2).isLt
  have hN : cfg0.N = 32 := N_0
  have ht : (i 0).val / 8 < cfg0.N := by rw [hN]; omega
  obtain ⟨-, -, -, -, -, -, -, -, -, -, -, -, -, -, -, e0, e1, e2⟩ := idx_facts ⟨(i 0).val / 8, ht⟩
  refine ⟨⟨(i 0).val / 8, ht⟩, flush0_7 _, ?_⟩
  rw [mem_blkD]
  intro a
  match a with
  | ⟨0, _⟩ => show win0_7.index ⟨(i 0).val / 8, ht⟩ (0 : Fin 3) * 8 ≤ (i 0).val ∧ (i 0).val < win0_7.index ⟨(i 0).val / 8, ht⟩ (0 : Fin 3) * 8 + 8; rw [e0]; show (i 0).val / 8 * 8 ≤ (i 0).val ∧ (i 0).val < (i 0).val / 8 * 8 + 8; omega
  | ⟨1, _⟩ => show win0_7.index ⟨(i 0).val / 8, ht⟩ (1 : Fin 3) * 512 ≤ (i 1).val ∧ (i 1).val < win0_7.index ⟨(i 0).val / 8, ht⟩ (1 : Fin 3) * 512 + 512; rw [e1]; omega
  | ⟨2, _⟩ => show win0_7.index ⟨(i 0).val / 8, ht⟩ (2 : Fin 3) * 128 ≤ (i 2).val ∧ (i 2).val < win0_7.index ⟨(i 0).val / 8, ht⟩ (2 : Fin 3) * 128 + 128; rw [e2]; omega

/-- After the run the first result array holds `resS`. -/
theorem finalS (c : Dev nD) : (dats m 0 c).arrAt 6 cfg0.N = resS m c :=
  (dats m 0 c).arrAt_eq_of_cover 6 (resS m c) (fun t _ => flushedS_eq m c t) coverS

/-- After the run the second result array holds `resD`. -/
theorem finalD (c : Dev nD) : (dats m 0 c).arrAt 7 cfg0.N = resD m c :=
  (dats m 0 c).arrAt_eq_of_cover 7 (resD m c) (fun t _ => flushedD_eq m c t) coverD

/-- The kernel's run, read: each result array at its function of the argument arrays, the arguments unchanged. -/
theorem run : θ_run defs (onTc (τ := τ) (main (F := Ideal))) ⟨m, fun _ => 0, ρ⟩ fun r => ∀ c : Dev nD,
      r.2.mem ((c : Thread nD τ).loc main_v2_0) = resS m c
      ∧ r.2.mem ((c : Thread nD τ).loc main_v2_1) = resD m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (finalS m c), (h c).2.1.trans (finalD m c), (h c).2.2⟩)
    (Value.run_blocks m ρ)

end Cert.KernelIdeal.Blocks

end
-- ==== Proof.RefValue.lean ====
/-
  The reference's two results, read at an index.

  The reference forms, for every batch row b and position l, the count of the id at (b, l) among the 512 ids of row b of
  each id array: a compare of broadcasts, widened to i32, an integer sum over the last axis, converted to a float; two
  counts are joined into a pair, zeroed where the id is 0; each count goes through the first layer (a product with the
  first layer's weights, the bias, a maximum with zero), a contraction with the second layer's weights over the 128
  hidden units, the second bias; and the pair's two results are added to a zero start value. At the index (b, l, e)
  that is `Cooc.refAt` of the id, the two rows of ids, the weights' entries and the column e of the second layer.
-/
import proofs.«180339_g1889785610786_pilotgen1_543_2_alg».proof.Proof.RefRead
import proofs.«180339_g1889785610786_pilotgen1_543_2_alg».proof.Proof.Spec
import Idealize.ShloMosaic.Lib.ValueIdx
import Idealize.ShloMosaic.Lib.Pipeline.Value
import Idealize.ShloMosaic.PureOps.Ideal.Laws
import Idealize.ShloMosaic.Lib.WordSum

noncomputable section

namespace Cert.ReferenceIdeal.RefValue

open Cert.ReferenceIdeal Cert.ReferenceIdeal.Gen Cert.ReferenceIdeal.ReadP Idealize.ShloMosaic
  Idealize.ShloMosaic.ValueIdx Cooc

open scoped BigOperators

/-! ### Counting with 32-bit words -/

/-- A sum of zeros and ones, one per marked element, is the number of marked elements, as an extended real. -/
private theorem coe_sum_bool {ι : Type*} (S : Finset ι) (f : ι → Bool) :
    (((∑ i ∈ S, (f i).toNat : ℕ) : ℝ) : EReal) = ∑ i ∈ S, if f i then (1 : EReal) else 0 := by
  induction S using Finset.cons_induction with
  | empty => simp
  | cons a S ha ih =>
    rw [Finset.sum_cons, Finset.sum_cons, Nat.cast_add, EReal.coe_add, ih]
    cases f a <;> simp

/-- A one-bit word widened to 32 bits has the bit's value. -/
private theorem toNat_bit (c : Bool) : ((BitVec.ofBool c).setWidth 32).toNat = c.toNat := by
  cases c <;> rfl

/-- The 32-bit sum of 512 widened bits does not wrap (it is at most 512), so its signed value is the number of set
    bits. -/
private theorem sum_bits (f : Fin 512 → Bool) :
    (((∑ j : Fin 512, (BitVec.ofBool (f j)).setWidth 32 : BitVec 32).toInt : ℝ) : EReal)
      = ∑ j : Fin 512, if f j then (1 : EReal) else 0 := by
  have hb : ∑ j : Fin 512, ((BitVec.ofBool (f j)).setWidth 32).toNat ≤ 512 := by
    calc ∑ j : Fin 512, ((BitVec.ofBool (f j)).setWidth 32).toNat ≤ ∑ _j : Fin 512, 1 :=
          Finset.sum_le_sum fun j _ => by rw [toNat_bit]; cases f j <;> decide
      _ = 512 := by simp
  have hn := WordSum.toNat_sum Finset.univ (fun j : Fin 512 => (BitVec.ofBool (f j)).setWidth 32) (by omega)
  have hi : (∑ j : Fin 512, (BitVec.ofBool (f j)).setWidth 32 : BitVec 32).toInt
      = ((∑ j : Fin 512, (f j).toNat : ℕ) : ℤ) := by
    rw [BitVec.toInt_eq_toNat_of_lt (by rw [hn]; omega), hn]
    simp only [toNat_bit]
  rw [hi, Int.cast_natCast]
  exact coe_sum_bool _ _

/-- The float of the word sum of the widened compare bits of `a` against a row is the count of `a` in the row. -/
private theorem count_read (a : BitVec 32) (y : Fin 512 → BitVec 32) :
    (FloatOps.sitofp (F := Ideal) .f32 (∑ k : Fin 512, (IntOp.cmpi .eq a (y k)).setWidth 32 : BitVec 32) : EReal)
      = Cooc.count a y := by
  show (((∑ k : Fin 512, (BitVec.ofBool (a == y k)).setWidth 32 : BitVec 32).toInt : ℝ) : EReal) = _
  rw [sum_bits (fun k => a == y k)]
  unfold Cooc.count
  simp only [beq_iff_eq]

/-! ### The integer sum over the last axis -/

private theorem reduces_d2 : S256x512x512.Reduces [2] S256x512 := by decide

/-- A fold by word addition is the start value plus the sum. -/
private theorem fold_addi {ι : Type*} (S : Finset ι) (b : BitVec 32) (f : ι → BitVec 32) :
    S.fold IntOp.addi b f = b + ∑ i ∈ S, f i := by
  induction S using Finset.cons_induction with
  | empty => simp
  | cons a S ha ih => rw [Finset.fold_cons, Finset.sum_cons, ih, IntOp.addi_eq_add]; exact add_left_comm _ _ _

/-- The host's integer sum over the last axis from a zero start value, at (b, l): the sum over the 512 last
    coordinates. -/
private theorem hostSum_apply (x : (⟨S256x512x512, .i32⟩ : BufTy).Contents (Elt Ideal))
    (init : (⟨S_, .i32⟩ : BufTy).Contents (Elt Ideal)) (hinit : init (Shape.Idx.first h_S_) = 0#32)
    (b : Fin 256) (l : Fin 512) :
    Host.reduce IntOp.addi x init reducesTo_S256x512x512_S256x512_d2 h_S_ (ix2 b l)
      = ∑ k : Fin 512, x (ix3 b l k) := by
  rw [Host.reduce_eq_fold_single IntOp.addi x init reducesTo_S256x512x512_S256x512_d2 reduces_d2 h_S_ (ix2 b l),
    fold_addi, hinit]
  show (0 : BitVec 32) + _ = _
  rw [zero_add]
  refine Finset.sum_congr rfl fun k _ => ?_
  exact congrArg x (funext fun a => Fin.ext (by match a with | ⟨0, _⟩ => rfl | ⟨1, _⟩ => rfl | ⟨2, _⟩ => rfl))

/-- Two rank-2 indices with the same coordinates. -/
local macro "idx2" : tactic =>
  `(tactic| exact funext fun a => by match a with | ⟨0, _⟩ => rfl | ⟨1, _⟩ => rfl)
/-- Two rank-3 indices with the same coordinates. -/
local macro "idx3" : tactic =>
  `(tactic| exact funext fun a => by match a with | ⟨0, _⟩ => rfl | ⟨1, _⟩ => rfl | ⟨2, _⟩ => rfl)
/-- Two rank-4 indices with the same coordinates. -/
local macro "idx4" : tactic =>
  `(tactic| exact funext fun a => by match a with | ⟨0, _⟩ => rfl | ⟨1, _⟩ => rfl | ⟨2, _⟩ => rfl | ⟨3, _⟩ => rfl)

/-! ### The four counts -/

variable (x0 x1 : (⟨S256x512, .i32⟩ : BufTy).Contents (Elt Ideal))

/-- The source id at (b, l) counted in row b of the source ids. -/
private theorem v7_at (b : Fin 256) (l : Fin 512) :
    val_main_v7 (F := Ideal) x0 (ix2 b l) = Cooc.count (x0 (ix2 b l)) (fun j => x0 (ix2 b j)) := by
  rw [val_main_v7_apply]
  unfold val_main_v6
  rw [hostSum_apply _ _ rfl, ← count_read]
  refine congrArg _ (Finset.sum_congr rfl fun k _ => ?_)
  rw [val_main_v5_apply, val_main_v4_apply, val_main_v2_apply, val_main_v0_apply, val_main_v3_apply, val_main_v1_apply]
  exact congrArg₂ (fun u v => (IntOp.cmpi .eq u v).setWidth 32) (congrArg x0 (by idx2)) (congrArg x0 (by idx2))

/-- The source id at (b, l) counted in row b of the destination ids. -/
private theorem v15_at (b : Fin 256) (l : Fin 512) :
    val_main_v15 (F := Ideal) x0 x1 (ix2 b l) = Cooc.count (x0 (ix2 b l)) (fun j => x1 (ix2 b j)) := by
  rw [val_main_v15_apply]
  unfold val_main_v14
  rw [hostSum_apply _ _ rfl, ← count_read]
  refine congrArg _ (Finset.sum_congr rfl fun k _ => ?_)
  rw [val_main_v13_apply, val_main_v12_apply, val_main_v10_apply, val_main_v8_apply, val_main_v11_apply, val_main_v9_apply]
  exact congrArg₂ (fun u v => (IntOp.cmpi .eq u v).setWidth 32) (congrArg x0 (by idx2)) (congrArg x1 (by idx2))

/-- The destination id at (b, l) counted in row b of the source ids. -/
private theorem v26_at (b : Fin 256) (l : Fin 512) :
    val_main_v26 (F := Ideal) x0 x1 (ix2 b l) = Cooc.count (x1 (ix2 b l)) (fun j => x0 (ix2 b j)) := by
  rw [val_main_v26_apply]
  unfold val_main_v25
  rw [hostSum_apply _ _ rfl, ← count_read]
  refine congrArg _ (Finset.sum_congr rfl fun k _ => ?_)
  rw [val_main_v24_apply, val_main_v23_apply, val_main_v21_apply, val_main_v19_apply, val_main_v22_apply, val_main_v20_apply]
  exact congrArg₂ (fun u v => (IntOp.cmpi .eq u v).setWidth 32) (congrArg x1 (by idx2)) (congrArg x0 (by idx2))

/-- The destination id at (b, l) counted in row b of the destination ids. -/
private theorem v34_at (b : Fin 256) (l : Fin 512) :
    val_main_v34 (F := Ideal) x1 (ix2 b l) = Cooc.count (x1 (ix2 b l)) (fun j => x1 (ix2 b j)) := by
  rw [val_main_v34_apply]
  unfold val_main_v33
  rw [hostSum_apply _ _ rfl, ← count_read]
  refine congrArg _ (Finset.sum_congr rfl fun k _ => ?_)
  rw [val_main_v32_apply, val_main_v31_apply, val_main_v29_apply, val_main_v27_apply, val_main_v30_apply, val_main_v28_apply]
  exact congrArg₂ (fun u v => (IntOp.cmpi .eq u v).setWidth 32) (congrArg x1 (by idx2)) (congrArg x1 (by idx2))

/-! ### The pair of counts, and the mask -/

/-- The first entry of the source ids' pair. -/
private theorem v18_at0 (b : Fin 256) (l : Fin 512) :
    val_main_v18 (F := Ideal) x0 x1 (ix3 b l 0) = Cooc.count (x0 (ix2 b l)) (fun j => x0 (ix2 b j)) := by
  unfold val_main_v18
  refine (concatenate_pair_apply_left (t := S256x512x2) (s₁ := S256x512x1) (s₂ := S256x512x1) 2 (val_main_v16 (F := Ideal) x0) (val_main_v17 (F := Ideal) x0 x1)
    concatenates_S256x512x1_S256x512x1_S256x512x2_d2 (ix3 b l 0 : S256x512x2.Idx) rfl (ix3 b l 0 : S256x512x1.Idx)
    (fun c => by match c with | ⟨0, _⟩ => rfl | ⟨1, _⟩ => rfl | ⟨2, _⟩ => rfl)).trans ?_
  rw [val_main_v16_apply]
  exact (congrArg (val_main_v7 (F := Ideal) x0) (by idx2)).trans (v7_at x0 b l)

/-- The second entry of the source ids' pair. -/
private theorem v18_at1 (b : Fin 256) (l : Fin 512) :
    val_main_v18 (F := Ideal) x0 x1 (ix3 b l 1) = Cooc.count (x0 (ix2 b l)) (fun j => x1 (ix2 b j)) := by
  unfold val_main_v18
  refine (concatenate_pair_apply_right (t := S256x512x2) (s₁ := S256x512x1) (s₂ := S256x512x1) 2 (val_main_v16 (F := Ideal) x0) (val_main_v17 (F := Ideal) x0 x1)
    concatenates_S256x512x1_S256x512x1_S256x512x2_d2 (ix3 b l 1 : S256x512x2.Idx) rfl rfl (ix3 b l 0 : S256x512x1.Idx)
    (fun c hc => by match c with | ⟨0, _⟩ => rfl | ⟨1, _⟩ => rfl | ⟨2, _⟩ => exact absurd rfl hc) rfl).trans ?_
  rw [val_main_v17_apply]
  exact (congrArg (val_main_v15 (F := Ideal) x0 x1) (by idx2)).trans (v15_at x0 x1 b l)

/-- The first entry of the destination ids' pair. -/
private theorem v37_at0 (b : Fin 256) (l : Fin 512) :
    val_main_v37 (F := Ideal) x0 x1 (ix3 b l 0) = Cooc.count (x1 (ix2 b l)) (fun j => x0 (ix2 b j)) := by
  unfold val_main_v37
  refine (concatenate_pair_apply_left (t := S256x512x2) (s₁ := S256x512x1) (s₂ := S256x512x1) 2 (val_main_v35 (F := Ideal) x0 x1) (val_main_v36 (F := Ideal) x1)
    concatenates_S256x512x1_S256x512x1_S256x512x2_d2 (ix3 b l 0 : S256x512x2.Idx) rfl (ix3 b l 0 : S256x512x1.Idx)
    (fun c => by match c with | ⟨0, _⟩ => rfl | ⟨1, _⟩ => rfl | ⟨2, _⟩ => rfl)).trans ?_
  rw [val_main_v35_apply]
  exact (congrArg (val_main_v26 (F := Ideal) x0 x1) (by idx2)).trans (v26_at x0 x1 b l)

/-- The second entry of the destination ids' pair. -/
private theorem v37_at1 (b : Fin 256) (l : Fin 512) :
    val_main_v37 (F := Ideal) x0 x1 (ix3 b l 1) = Cooc.count (x1 (ix2 b l)) (fun j => x1 (ix2 b j)) := by
  unfold val_main_v37
  refine (concatenate_pair_apply_right (t := S256x512x2) (s₁ := S256x512x1) (s₂ := S256x512x1) 2 (val_main_v35 (F := Ideal) x0 x1) (val_main_v36 (F := Ideal) x1)
    concatenates_S256x512x1_S256x512x1_S256x512x2_d2 (ix3 b l 1 : S256x512x2.Idx) rfl rfl (ix3 b l 0 : S256x512x1.Idx)
    (fun c hc => by match c with | ⟨0, _⟩ => rfl | ⟨1, _⟩ => rfl | ⟨2, _⟩ => exact absurd rfl hc) rfl).trans ?_
  rw [val_main_v36_apply]
  exact (congrArg (val_main_v34 (F := Ideal) x1) (by idx2)).trans (v34_at x1 b l)

/-- A select on "the id is 0" between the zero float and a count is the appearance count. -/
private theorem select_app (a : BitVec 32) (c : EReal) :
    Scalar.select (IntOp.cmpi .eq a 0#32) (FloatOps.ofBits (F := Ideal) .f32 0x00000000#32 : EReal) c
      = if a = 0#32 then 0 else c := by
  rw [Ideal.ofBits_def, Ideal.ofBits_zero_f32]
  by_cases h : a = 0#32
  · subst h; rfl
  · rw [if_neg h]
    have : IntOp.cmpi .eq a 0#32 = 0#1 := by
      show BitVec.ofBool (a == 0#32) = 0#1
      rw [show (a == 0#32) = false from beq_eq_false_iff_ne.mpr h]; rfl
    rw [this]; rfl

/-- The masked pair of the source ids at (b, l, c). -/
private theorem v41_at (b : Fin 256) (l : Fin 512) (c : Fin 2) :
    val_main_v41 (F := Ideal) x0 x1 (ix3 b l c)
      = if x0 (ix2 b l) = 0#32 then 0 else val_main_v18 (F := Ideal) x0 x1 (ix3 b l c) := by
  rw [val_main_v41_apply, val_main_call0_v1_apply, val_main_v40_apply, val_main_v38_apply, val_main_v39_apply,
    val_main_c_3_apply, val_main_call0_v2_apply, val_main_call0_v0_apply, val_main_cst_apply]
  exact (congrArg (fun u => Scalar.select (IntOp.cmpi .eq (x0 u) 0#32) _ _) (by idx2)).trans (select_app _ _)

/-- The masked pair of the destination ids at (b, l, c). -/
private theorem v45_at (b : Fin 256) (l : Fin 512) (c : Fin 2) :
    val_main_v45 (F := Ideal) x0 x1 (ix3 b l c)
      = if x1 (ix2 b l) = 0#32 then 0 else val_main_v37 (F := Ideal) x0 x1 (ix3 b l c) := by
  rw [val_main_v45_apply, val_main_call1_v1_apply, val_main_v44_apply, val_main_v42_apply, val_main_v43_apply,
    val_main_c_4_apply, val_main_call1_v2_apply, val_main_call1_v0_apply, val_main_cst_5_apply]
  exact (congrArg (fun u => Scalar.select (IntOp.cmpi .eq (x1 u) 0#32) _ _) (by idx2)).trans (select_app _ _)

/-- The source ids' two appearance counts. -/
private theorem v41_at0 (b : Fin 256) (l : Fin 512) :
    val_main_v41 (F := Ideal) x0 x1 (ix3 b l 0) = Cooc.app (x0 (ix2 b l)) (fun j => x0 (ix2 b j)) := by
  rw [v41_at, v18_at0]; rfl
private theorem v41_at1 (b : Fin 256) (l : Fin 512) :
    val_main_v41 (F := Ideal) x0 x1 (ix3 b l 1) = Cooc.app (x0 (ix2 b l)) (fun j => x1 (ix2 b j)) := by
  rw [v41_at, v18_at1]; rfl

/-- The destination ids' two appearance counts. -/
private theorem v45_at0 (b : Fin 256) (l : Fin 512) :
    val_main_v45 (F := Ideal) x0 x1 (ix3 b l 0) = Cooc.app (x1 (ix2 b l)) (fun j => x0 (ix2 b j)) := by
  rw [v45_at, v37_at0]; rfl
private theorem v45_at1 (b : Fin 256) (l : Fin 512) :
    val_main_v45 (F := Ideal) x0 x1 (ix3 b l 1) = Cooc.app (x1 (ix2 b l)) (fun j => x1 (ix2 b j)) := by
  rw [v45_at, v37_at1]; rfl

/-! ### The two layers -/

/-- Two rank-1 indices with the same coordinate. -/
local macro "idx1" : tactic => `(tactic| exact funext fun a => by match a with | ⟨0, _⟩ => rfl)

variable (x2 : (⟨S1x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first layer's weights, reshaped from one row to a vector, at k. -/
private theorem val_main_v47_at (k : Fin 128) : val_main_v47 (F := Ideal) x2 (ix1 k) = x2 (ix2 (0 : Fin 1) k) := by
  rw [val_main_v47_apply]
  exact congrArg x2 (funext fun a => by
    match a with | ⟨0, _⟩ => rfl | ⟨1, _⟩ => exact Fin.ext (Nat.mod_eq_of_lt k.isLt))
private theorem val_main_v62_at (k : Fin 128) : val_main_v62 (F := Ideal) x2 (ix1 k) = x2 (ix2 (0 : Fin 1) k) := by
  rw [val_main_v62_apply]
  exact congrArg x2 (funext fun a => by
    match a with | ⟨0, _⟩ => rfl | ⟨1, _⟩ => exact Fin.ext (Nat.mod_eq_of_lt k.isLt))

/-- One hidden unit of the first layer at (b, l, c, k), for the source ids: the appearance count times the first layer's weight, plus its
    bias, against zero. -/
private theorem val_main_v55_at (b : Fin 256) (l : Fin 512) (c : Fin 2) (k : Fin 128) :
    val_main_v55 (F := Ideal) x0 x1 x2 x3 (ix4 b l c k)
      = Cooc.hidden (fun k => x2 (ix2 (0 : Fin 1) k)) (fun k => x3 (ix1 k)) (val_main_v41 (F := Ideal) x0 x1 (ix3 b l c)) k := by
  rw [val_main_v55_apply, val_main_v54_apply, val_main_v51_apply, val_main_v49_apply, val_main_v46_apply, val_main_v50_apply, val_main_v48_apply,
    val_main_v53_apply, val_main_v52_apply, val_main_call2_v0_apply, val_main_call2_cst_apply, Ideal.ofBits_def, Ideal.ofBits_zero_f32]
  rw [show idx_main_v46 (idx_main_v49 (ix4 b l c k)) = ix3 b l c from by idx3,
    show idx_main_v48 (idx_main_v50 (ix4 b l c k)) = ix1 k from by idx1,
    show idx_main_v52 (idx_main_v53 (ix4 b l c k)) = ix1 k from by idx1, val_main_v47_at]
  rfl

/-- The second layer at (b, l, c, e), for the source ids: the contraction of the hidden units with column e of the second
    layer's weights, plus the second bias. -/
private theorem val_main_v59_at (b : Fin 256) (l : Fin 512) (c : Fin 2) (e : Fin 128) :
    val_main_v59 (F := Ideal) x0 x1 x2 x3 x4 x5 (ix4 b l c e)
      = (∑ k : Fin 128, Cooc.hidden (fun k => x2 (ix2 (0 : Fin 1) k)) (fun k => x3 (ix1 k))
            (val_main_v41 (F := Ideal) x0 x1 (ix3 b l c)) k * x4 (ix2 k e)) + x5 (ix1 e) := by
  rw [val_main_v59_apply, val_main_v56_apply, val_main_v58_apply, val_main_v57_apply]
  refine congrArg₂ (fun (u v : EReal) => u + v) (Finset.sum_congr rfl fun k _ => ?_) (congrArg x5 (by idx1))
  refine congrArg₂ (fun (u v : EReal) => u * v) ?_ (congrArg x4 (by idx2))
  exact (congrArg (val_main_v55 (F := Ideal) x0 x1 x2 x3) (by idx4)).trans (val_main_v55_at x0 x1 x2 x3 b l c k)

/-- One hidden unit of the first layer at (b, l, c, k), for the destination ids: the appearance count times the first layer's weight, plus its
    bias, against zero. -/
private theorem val_main_v70_at (b : Fin 256) (l : Fin 512) (c : Fin 2) (k : Fin 128) :
    val_main_v70 (F := Ideal) x0 x1 x2 x3 (ix4 b l c k)
      = Cooc.hidden (fun k => x2 (ix2 (0 : Fin 1) k)) (fun k => x3 (ix1 k)) (val_main_v45 (F := Ideal) x0 x1 (ix3 b l c)) k := by
  rw [val_main_v70_apply, val_main_v69_apply, val_main_v66_apply, val_main_v64_apply, val_main_v61_apply, val_main_v65_apply, val_main_v63_apply,
    val_main_v68_apply, val_main_v67_apply, val_main_call3_v0_apply, val_main_call3_cst_apply, Ideal.ofBits_def, Ideal.ofBits_zero_f32]
  rw [show idx_main_v61 (idx_main_v64 (ix4 b l c k)) = ix3 b l c from by idx3,
    show idx_main_v63 (idx_main_v65 (ix4 b l c k)) = ix1 k from by idx1,
    show idx_main_v67 (idx_main_v68 (ix4 b l c k)) = ix1 k from by idx1, val_main_v62_at]
  rfl

/-- The second layer at (b, l, c, e), for the destination ids: the contraction of the hidden units with column e of the second
    layer's weights, plus the second bias. -/
private theorem val_main_v74_at (b : Fin 256) (l : Fin 512) (c : Fin 2) (e : Fin 128) :
    val_main_v74 (F := Ideal) x0 x1 x2 x3 x4 x5 (ix4 b l c e)
      = (∑ k : Fin 128, Cooc.hidden (fun k => x2 (ix2 (0 : Fin 1) k)) (fun k => x3 (ix1 k))
            (val_main_v45 (F := Ideal) x0 x1 (ix3 b l c)) k * x4 (ix2 k e)) + x5 (ix1 e) := by
  rw [val_main_v74_apply, val_main_v71_apply, val_main_v73_apply, val_main_v72_apply]
  refine congrArg₂ (fun (u v : EReal) => u + v) (Finset.sum_congr rfl fun k _ => ?_) (congrArg x5 (by idx1))
  refine congrArg₂ (fun (u v : EReal) => u * v) ?_ (congrArg x4 (by idx2))
  exact (congrArg (val_main_v70 (F := Ideal) x0 x1 x2 x3) (by idx4)).trans (val_main_v70_at x0 x1 x2 x3 b l c k)

/-- The first result (the source ids' features) at (b, l, e). -/
theorem ref_s_apply (x0 x1 : (⟨S256x512, .i32⟩ : BufTy).Contents (Elt Ideal)) (x2 : (⟨S1x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (b : Fin 256) (l : Fin 512) (e : Fin 128) :
    val_main_v60 (F := Ideal) x0 x1 x2 x3 x4 x5 (ix3 b l e)
      = refAt (x0 (ix2 b l)) (fun j => x0 (ix2 b j)) (fun j => x1 (ix2 b j)) (fun k => x2 (ix2 (0 : Fin 1) k))
          (fun k => x3 (ix1 k)) (fun k => x4 (ix2 k e)) (x5 (ix1 e)) := by
  rw [val_main_v60_apply, Fin.sum_univ_two, val_main_cst_6_apply, Ideal.ofBits_def, Ideal.ofBits_zero_f32,
    show idx_main_v60 (ix3 b l e) 0 = ix4 b l 0 e from by idx4, show idx_main_v60 (ix3 b l e) 1 = ix4 b l 1 e from by idx4,
    val_main_v59_at, val_main_v59_at, v41_at0, v41_at1]
  rfl

/-- The second result (the destination ids' features) at (b, l, e). -/
theorem ref_d_apply (x0 x1 : (⟨S256x512, .i32⟩ : BufTy).Contents (Elt Ideal)) (x2 : (⟨S1x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (b : Fin 256) (l : Fin 512) (e : Fin 128) :
    val_main_v75 (F := Ideal) x0 x1 x2 x3 x4 x5 (ix3 b l e)
      = refAt (x1 (ix2 b l)) (fun j => x0 (ix2 b j)) (fun j => x1 (ix2 b j)) (fun k => x2 (ix2 (0 : Fin 1) k))
          (fun k => x3 (ix1 k)) (fun k => x4 (ix2 k e)) (x5 (ix1 e)) := by
  rw [val_main_v75_apply, Fin.sum_univ_two, val_main_cst_7_apply, Ideal.ofBits_def, Ideal.ofBits_zero_f32,
    show idx_main_v75 (ix3 b l e) 0 = ix4 b l 0 e from by idx4, show idx_main_v75 (ix3 b l e) 1 = ix4 b l 1 e from by idx4,
    val_main_v74_at, val_main_v74_at, v45_at0, v45_at1]
  rfl

end Cert.ReferenceIdeal.RefValue

end
-- ==== Proof.Algebra.lean ====
/-
  The two ways of adding the two counts' contributions agree over the extended reals when the weights are finite.

  With the hidden values h0 k, h1 k (each a maximum with 0 of a finite number, so finite and nonnegative), the column
  w2 of the second layer and its bias b2, all real,
      0 + ((∑ k, h0 k · w2 k + b2) + (∑ k, h1 k · w2 k + b2)) = ∑ k, (h0 k + h1 k) · w2 k + 2 · b2 :
  the product distributes over the sum of two reals, a finite sum of sums is the sum of the sums, and b2 + b2 = 2 · b2.
  The appearance counts are finite whatever the ids are (a sum of 512 ones and zeros).
-/
import proofs.«180339_g1889785610786_pilotgen1_543_2_alg».proof.Proof.Spec
import Mathlib.Data.EReal.Basic
import Mathlib.Data.EReal.Operations
import Mathlib.Algebra.BigOperators.Ring.Finset
import Mathlib.Tactic.Ring
import Mathlib.Tactic.NormNum

noncomputable section

open scoped BigOperators

namespace Cooc

/-- The image of a finite sum of reals is the sum of the images: the coercion is additive, term by term. -/
private theorem coe_sum {ι : Type} (s : Finset ι) (f : ι → ℝ) :
    ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- The coercion is monotone, so it carries the larger of two reals to the larger of their images. -/
private theorem coe_max (x y : ℝ) : ((max x y : ℝ) : EReal) = max (x : EReal) (y : EReal) :=
  EReal.coe_strictMono.monotone.map_max

/-- A count is a sum of 512 terms, each the image of the real 1 or 0, so it is the image of a real. -/
private theorem count_real (a : BitVec 32) (y : Fin 512 → BitVec 32) : ∃ c : ℝ, count a y = (c : EReal) := by
  refine ⟨∑ j : Fin 512, if a = y j then (1 : ℝ) else 0, ?_⟩
  unfold count
  rw [coe_sum]
  refine Finset.sum_congr rfl fun j _ => ?_
  split_ifs <;> simp

/-- The appearance count is a count or zero: the image of a real either way. -/
private theorem app_real (a : BitVec 32) (y : Fin 512 → BitVec 32) : ∃ c : ℝ, app a y = (c : EReal) := by
  unfold app
  split_ifs
  · exact ⟨0, by simp⟩
  · exact count_real a y

/-- The reference's arrangement and the kernel's are one value when the first layer's weights and bias, the second
    layer's column and its bias are all finite. -/
theorem refAt_eq_encAt (a : BitVec 32) (y0 y1 : Fin 512 → BitVec 32) (w1 b1 w2 : Fin 128 → EReal) (b2 : EReal)
    (hw1 : ∀ k, ∃ r : ℝ, w1 k = (r : EReal)) (hb1 : ∀ k, ∃ r : ℝ, b1 k = (r : EReal))
    (hw2 : ∀ k, ∃ r : ℝ, w2 k = (r : EReal)) (hb2 : ∃ r : ℝ, b2 = (r : EReal)) :
    refAt a y0 y1 w1 b1 w2 b2 = encAt a y0 y1 w1 b1 w2 b2 := by
  choose w1r hw1r using hw1
  choose b1r hb1r using hb1
  choose w2r hw2r using hw2
  obtain ⟨b2r, rfl⟩ := hb2
  obtain ⟨c0, hc0⟩ := app_real a y0
  obtain ⟨c1, hc1⟩ := app_real a y1
  -- a hidden unit at a real count is the image of the real relu (c · w1 k + b1 k)
  have hh : ∀ (c : ℝ) (k : Fin 128),
      hidden w1 b1 (c : EReal) k = ((max (c * w1r k + b1r k) 0 : ℝ) : EReal) := by
    intro c k
    unfold hidden
    rw [hw1r, hb1r, coe_max, EReal.coe_add, EReal.coe_mul, EReal.coe_zero]
  have h2 : (2 : EReal) = ((2 : ℝ) : EReal) := by norm_cast
  unfold refAt encAt
  rw [hc0, hc1, h2]
  simp only [hh, hw2r]
  -- both sides are now images of real expressions
  simp only [← EReal.coe_mul, ← EReal.coe_add, ← coe_sum, ← EReal.coe_zero]
  congr 1
  -- the identity over the reals
  rw [Finset.sum_congr rfl fun k _ => add_mul _ _ (w2r k), Finset.sum_add_distrib]
  ring

end Cooc

end
-- ==== Proof.RefEnc.lean ====
/-
  The reference's results are the encoder's function of the arguments, when the weights are finite.

  At every index the reference's result is `Cooc.refAt` (the second layer applied to each count's hidden vector, the
  two results added); with finite weights that is `Cooc.encAt` (the hidden vectors added first), which is what the
  kernel computes. So each result array is `Cooc.encOf` of the arguments.
-/
import proofs.«180339_g1889785610786_pilotgen1_543_2_alg».proof.Proof.RefValue
import proofs.«180339_g1889785610786_pilotgen1_543_2_alg».proof.Proof.Algebra

noncomputable section

namespace Cert.ReferenceIdeal.RefValue

open Cert.ReferenceIdeal Cert.ReferenceIdeal.Gen Cert.ReferenceIdeal.ReadP Idealize.ShloMosaic
  Idealize.ShloMosaic.ValueIdx Cooc

/-- The first result is the encoder's function for the source ids. -/
theorem ref_s_eq (x0 x1 : (⟨S256x512, .i32⟩ : BufTy).Contents (Elt Ideal)) (x2 : (⟨S1x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal))
    (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    val_main_v60 (F := Ideal) x0 x1 x2 x3 x4 x5 = encOf x0 x0 x1 x2 x3 x4 x5 := by
  funext i
  obtain ⟨b, l, e, rfl⟩ : ∃ (b : Fin 256) (l : Fin 512) (e : Fin 128), i = ix3 b l e := ⟨i 0, i 1, i 2, eq_ix3 i⟩
  rw [ref_s_apply]
  exact refAt_eq_encAt _ _ _ _ _ _ _ (fun _ => h2 _) (fun _ => h3 _) (fun _ => h4 _) (h5 _)

/-- The second result is the encoder's function for the destination ids. -/
theorem ref_d_eq (x0 x1 : (⟨S256x512, .i32⟩ : BufTy).Contents (Elt Ideal)) (x2 : (⟨S1x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal))
    (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    val_main_v75 (F := Ideal) x0 x1 x2 x3 x4 x5 = encOf x1 x0 x1 x2 x3 x4 x5 := by
  funext i
  obtain ⟨b, l, e, rfl⟩ : ∃ (b : Fin 256) (l : Fin 512) (e : Fin 128), i = ix3 b l e := ⟨i 0, i 1, i 2, eq_ix3 i⟩
  rw [ref_d_apply]
  exact refAt_eq_encAt _ _ _ _ _ _ _ (fun _ => h2 _) (fun _ => h3 _) (fun _ => h4 _) (h5 _)

end Cert.ReferenceIdeal.RefValue

end
-- ==== Proof.Finite.lean ====
/-
  The precondition, read: every entry of the four float inputs is a real number.

  The printed precondition is the conjunction of four `all (|x| < +inf)` tests, one per float input. Each conjunct gives,
  entry by entry, |x| < +inf on the extended reals, and an extended real whose absolute value is below +inf is neither
  +inf nor -inf: it is the image of a real.
-/
import proofs.«180339_g1889785610786_pilotgen1_543_2_alg».proof.Pre_finite_inputs
import Idealize.ShloMosaic.PureOps.Ideal
import Idealize.ShloMosaic.Lib.ReduceAll
import Idealize.ShloMosaic.Lib.ValueIdx

noncomputable section

namespace Cooc

open Idealize.ShloMosaic Idealize.ShloMosaic.ValueIdx Cert.Pre_finite_inputs

variable [Cert.Pre_finite_inputs.Facts]

/-- The rank-0 shape has exactly one index. -/
private instance subsingleton_scalar_idx : Subsingleton S_.Idx := ⟨fun a b => funext fun d => d.elim0⟩

/-- The f32 word with all exponent bits set and no fraction bit is +inf. -/
private theorem ofBits_inf : Ideal.ofBits .f32 0x7F800000#32 = (⊤ : EReal) := by
  simp [Ideal.ofBits, Ideal.ieee]

/-- An extended real whose absolute value max x (-x) is below +inf is neither infinity: it is the image of a real. -/
private theorem real_of_abs_lt_top (x : EReal) (h : max x (-x) < ⊤) : ∃ r : ℝ, x = (r : EReal) := by
  induction x using EReal.rec with
  | bot => simp at h
  | coe r => exact ⟨r, rfl⟩
  | top => simp at h

/-- One entry of one test: where |x| < broadcast (+inf) answers 1 at the index i, the entry x i is a real. -/
private theorem real_of_test {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) := by
  -- the broadcast of a constant array reads the constant: the test at i compares max (x i) (-(x i)) with the literal
  change Ideal.cmp .olt (max (x i) (-(x i))) (Ideal.ofBits .f32 0x7F800000#32) = 1#1 at h
  rw [ofBits_inf] at h
  refine real_of_abs_lt_top (x i) ?_
  by_contra hn
  simp [Ideal.cmp, hn] at h

/-- Under the precondition every entry of W1, b1, W2 and b2 is a real. -/
theorem finite_of_pre (x0 x1 : IVec S256x512 32) (x2 : FVec Ideal S1x128 .f32) (x3 : FVec Ideal S128 .f32)
    (x4 : FVec Ideal S128x128 .f32) (x5 : FVec Ideal S128 .f32)
    (h : Cert.Pre_finite_inputs.fn (F := Ideal) x0 x1 x2 x3 x4 x5 = fun _ => 1#1) :
    (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ix0
  dsimp only [Cert.Pre_finite_inputs.fn, Cert.Pre_finite_inputs.fn_part1] at h0
  -- the value at the one index is the conjunction, by and, of the four tests' reductions
  obtain ⟨h123, h4⟩ := IntOp.andi_eq_one.1 h0
  obtain ⟨h12, h3⟩ := IntOp.andi_eq_one.1 h123
  obtain ⟨h1, h2⟩ := IntOp.andi_eq_one.1 h12
  -- a reduction by and that is 1 met only 1s: each test holds at every entry, and a passed test makes the entry real
  exact ⟨fun i => real_of_test _ x2 i (Host.reduce_andi_all _ _ _ _ ix0 h1 i),
    fun i => real_of_test _ x3 i (Host.reduce_andi_all _ _ _ _ ix0 h2 i),
    fun i => real_of_test _ x4 i (Host.reduce_andi_all _ _ _ _ ix0 h3 i),
    fun i => real_of_test _ x5 i (Host.reduce_andi_all _ _ _ _ ix0 h4 i)⟩

end Cooc

end
-- ==== Proof.lean ====
/-
  The certificate of the fused co-occurrence encoder against its jnp reference, over the extended reals.

  Both programs compute, for each of the two id arrays (source and destination ids, [256, 512]), a feature array
  [256, 512, 128]: for the id at (b, l), its appearance counts among the source ids and among the destination ids of
  batch row b (zero for the padding id 0), each sent through relu (c · W1 + b1), then through the second layer W2, b2, the
  two counts' contributions added. The reference applies the second layer to each count and adds the results; the
  kernel adds the two hidden vectors first and applies the second layer once, with twice the bias. Over the extended
  reals the two agree because the second layer is linear on finite values: the precondition makes W1, b1, W2, b2 finite
  and a count is a natural number. The kernel's side is read off its frame run block by block (eight batch rows a
  grid point), the reference's side operation by operation, and both are the function `Cooc.encOf` of the arguments.
  The three frames are the programs' runs with the values dropped; the idealization rewrote nothing.
-/
import proofs.«180339_g1889785610786_pilotgen1_543_2_alg».proof.Defs
import proofs.«180339_g1889785610786_pilotgen1_543_2_alg».proof.Proof.Gen.Kernel
import proofs.«180339_g1889785610786_pilotgen1_543_2_alg».proof.Proof.Gen.Kernel.Skeleton
import proofs.«180339_g1889785610786_pilotgen1_543_2_alg».proof.Proof.Gen.Kernel.Launch
import proofs.«180339_g1889785610786_pilotgen1_543_2_alg».proof.Proof.Gen.Kernel.Points
import proofs.«180339_g1889785610786_pilotgen1_543_2_alg».proof.Proof.Gen.Kernel.Frame
import proofs.«180339_g1889785610786_pilotgen1_543_2_alg».proof.Proof.Gen.KernelIdeal
import proofs.«180339_g1889785610786_pilotgen1_543_2_alg».proof.Proof.Gen.KernelIdeal.Skeleton
import proofs.«180339_g1889785610786_pilotgen1_543_2_alg».proof.Proof.Gen.KernelIdeal.Launch
import proofs.«180339_g1889785610786_pilotgen1_543_2_alg».proof.Proof.Gen.KernelIdeal.Points
import proofs.«180339_g1889785610786_pilotgen1_543_2_alg».proof.Proof.Gen.KernelIdeal.Frame
import proofs.«180339_g1889785610786_pilotgen1_543_2_alg».proof.Proof.Gen.ReferenceIdeal
import proofs.«180339_g1889785610786_pilotgen1_543_2_alg».proof.Proof.Gen.Pre_finite_inputs
import proofs.«180339_g1889785610786_pilotgen1_543_2_alg».proof.Proof.Gen.KernelIdeal.Value
import proofs.«180339_g1889785610786_pilotgen1_543_2_alg».proof.Proof.Blocks
import proofs.«180339_g1889785610786_pilotgen1_543_2_alg».proof.Proof.RefRun
import proofs.«180339_g1889785610786_pilotgen1_543_2_alg».proof.Proof.RefEnc
import proofs.«180339_g1889785610786_pilotgen1_543_2_alg».proof.Proof.Finite
import Idealize.ShloMosaic.Adequacy
import Idealize.ShloMosaic.Init

noncomputable section

namespace Cert.Proof

open Idealize.ShloMosaic Idealize.SL.Sem

/-- The kernel as printed runs and leaves its arguments alone. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.RunP.run (F := Ideal) m ρ)

/-- From memories agreeing on the six arguments, under finite weights, both programs end with the two feature arrays
    at `Cooc.encOf` of the arguments: the kernel by its blocks, the reference by its operations and the linearity of
    the second layer. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Blocks.resS m c, fun c => Cert.KernelIdeal.Blocks.resD m c,
    Cert.KernelIdeal.Blocks.run m ρ, ?_⟩
  refine (θ_run Cert.ReferenceIdeal.defs _ _).mono (fun _ h c => ?_) (Cert.ReferenceIdeal.RunP.run (F := Ideal) m' ρ')
  obtain ⟨f2, f3, f4, f5⟩ := Cooc.finite_of_pre _ _ _ _ _ _ (hpre c)
  obtain ⟨a0, a1, a2, a3, a4, a5⟩ := hagree c
  refine ⟨(h c).1.trans ((Cert.ReferenceIdeal.ReadP.val_main_v60_eq _ _ _ _ _ _).trans ?_),
    (h c).2.1.trans ((Cert.ReferenceIdeal.ReadP.val_main_v75_eq _ _ _ _ _ _).trans ?_), (h c).2.2⟩
  · rw [a0, a1, a2, a3, a4, a5]
    exact Cert.ReferenceIdeal.RefValue.ref_s_eq _ _ _ _ _ _ f2 f3 f4 f5
  · rw [a0, a1, a2, a3, a4, a5]
    exact Cert.ReferenceIdeal.RefValue.ref_d_eq _ _ _ _ _ _ f2 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
